-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)) (v7 : (c : Dev Cert.KernelIdeal.nD) → Buf (Elt Ideal) ((c.tc : Thread Cert.KernelIdeal.nD Cert.KernelIdeal.τ).loc Cert.KernelIdeal.main_v2_7)) (v8 : (c : Dev Cert.KernelIdeal.nD) → Buf (Elt Ideal) ((c.tc : Thread Cert.KernelIdeal.nD Cert.KernelIdeal.τ).loc Cert.KernelIdeal.main_v2_8)) (v9 : (c : Dev Cert.KernelIdeal.nD) → Buf (Elt Ideal) ((c.tc : Thread Cert.KernelIdeal.nD Cert.KernelIdeal.τ).loc Cert.KernelIdeal.main_v2_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_v2_8) = v8 c
          ∧ r.2.mem ((c.tc : Thread Cert.KernelIdeal.nD Cert.KernelIdeal.τ).loc Cert.KernelIdeal.main_v2_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_v109) = v5 c
          ∧ r.2.mem ((c.tc : Thread Cert.ReferenceIdeal.nD Cert.ReferenceIdeal.τ).loc Cert.ReferenceIdeal.main_v23) = v6 c
          ∧ r.2.mem ((c.tc : Thread Cert.ReferenceIdeal.nD Cert.ReferenceIdeal.τ).loc Cert.ReferenceIdeal.main_v46) = v7 c
          ∧ r.2.mem ((c.tc : Thread Cert.ReferenceIdeal.nD Cert.ReferenceIdeal.τ).loc Cert.ReferenceIdeal.main_v68) = v8 c
          ∧ r.2.mem ((c.tc : Thread Cert.ReferenceIdeal.nD Cert.ReferenceIdeal.τ).loc Cert.ReferenceIdeal.main_v91) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x192x1024 : Shape := ⟨3, ![32, 192, 1024]⟩
abbrev S32x192 : Shape := ⟨2, ![32, 192]⟩
abbrev S_ : Shape := ⟨0, ![]⟩

class Facts : Prop where
  bcast_S_S32x192x1024 : S_.BroadcastsInDim S32x192x1024 (![] : Fin 0 → Fin S32x192x1024.rank)
  reducesTo_S32x192x1024_S_d0_1_2 : S32x192x1024.ReducesTo [0, 1, 2] S_
  h_S_ : 0 < S_.numel
  bcast_S_S32x192 : S_.BroadcastsInDim S32x192 (![] : Fin 0 → Fin S32x192.rank)
  reducesTo_S32x192_S_d0_1 : S32x192.ReducesTo [0, 1] S_

variable [Facts]

def fn_part1 {F : FTy → Type} [FloatOps F] (main_arg4 : FVec F S32x192x1024 .f32) (main_arg5 : FVec F S32x192x1024 .f32) (main_v13 : IVec S_ 1) (main_v16 : IVec S32x192 1) : IVec S_ 1 :=
  let main_c_5 : IVec S_ 1 := constantI S_ 1 1#1
  let main_v17 : IVec S_ 1 := (fun x v => Host.reduce IntOp.andi x v reducesTo_S32x192_S_d0_1 h_S_) main_v16 main_c_5
  let main_v18 : IVec S_ 1 := andi main_v13 main_v17
  let main_v19 : FVec F S32x192x1024 .f32 := Host.absf main_arg4
  let main_cst_6 : FVec F S_ .f32 := constant S_ .f32 0x7F800000#32
  let main_v20 : FVec F S32x192x1024 .f32 := broadcastInDim S32x192x1024 ![] bcast_S_S32x192x1024 main_cst_6
  let main_v21 : IVec S32x192x1024 1 := cmpf .olt main_v19 main_v20
  let main_c_7 : IVec S_ 1 := constantI S_ 1 1#1
  let main_v22 : IVec S_ 1 := (fun x v => Host.reduce IntOp.andi x v reducesTo_S32x192x1024_S_d0_1_2 h_S_) main_v21 main_c_7
  let main_v23 : IVec S_ 1 := andi main_v18 main_v22
  let main_v24 : FVec F S32x192x1024 .f32 := Host.absf main_arg5
  let main_cst_8 : FVec F S_ .f32 := constant S_ .f32 0x7F800000#32
  let main_v25 : FVec F S32x192x1024 .f32 := broadcastInDim S32x192x1024 ![] bcast_S_S32x192x1024 main_cst_8
  let main_v26 : IVec S32x192x1024 1 := cmpf .olt main_v24 main_v25
  let main_c_9 : IVec S_ 1 := constantI S_ 1 1#1
  let main_v27 : IVec S_ 1 := (fun x v => Host.reduce IntOp.andi x v reducesTo_S32x192x1024_S_d0_1_2 h_S_) main_v26 main_c_9
  let main_v28 : IVec S_ 1 := andi main_v23 main_v27
  main_v28

def fn {F : FTy → Type} [FloatOps F] (main_arg0 : FVec F S32x192x1024 .f32) (main_arg1 : FVec F S32x192 .f32) (main_arg2 : FVec F S32x192x1024 .f32) (main_arg3 : FVec F S32x192 .f32) (main_arg4 : FVec F S32x192x1024 .f32) (main_arg5 : FVec F S32x192x1024 .f32) : IVec S_ 1 :=
  let main_v0 : FVec F S32x192x1024 .f32 := Host.absf main_arg0
  let main_cst : FVec F S_ .f32 := constant S_ .f32 0x7F800000#32
  let main_v1 : FVec F S32x192x1024 .f32 := broadcastInDim S32x192x1024 ![] bcast_S_S32x192x1024 main_cst
  let main_v2 : IVec S32x192x1024 1 := cmpf .olt main_v0 main_v1
  let main_c : IVec S_ 1 := constantI S_ 1 1#1
  let main_v3 : IVec S_ 1 := (fun x v => Host.reduce IntOp.andi x v reducesTo_S32x192x1024_S_d0_1_2 h_S_) main_v2 main_c
  let main_v4 : FVec F S32x192 .f32 := Host.absf main_arg1
  let main_cst_0 : FVec F S_ .f32 := constant S_ .f32 0x7F800000#32
  let main_v5 : FVec F S32x192 .f32 := broadcastInDim S32x192 ![] bcast_S_S32x192 main_cst_0
  let main_v6 : IVec S32x192 1 := cmpf .olt main_v4 main_v5
  let main_c_1 : IVec S_ 1 := constantI S_ 1 1#1
  let main_v7 : IVec S_ 1 := (fun x v => Host.reduce IntOp.andi x v reducesTo_S32x192_S_d0_1 h_S_) main_v6 main_c_1
  let main_v8 : IVec S_ 1 := andi main_v3 main_v7
  let main_v9 : FVec F S32x192x1024 .f32 := Host.absf main_arg2
  let main_cst_2 : FVec F S_ .f32 := constant S_ .f32 0x7F800000#32
  let main_v10 : FVec F S32x192x1024 .f32 := broadcastInDim S32x192x1024 ![] bcast_S_S32x192x1024 main_cst_2
  let main_v11 : IVec S32x192x1024 1 := cmpf .olt main_v9 main_v10
  let main_c_3 : IVec S_ 1 := constantI S_ 1 1#1
  let main_v12 : IVec S_ 1 := (fun x v => Host.reduce IntOp.andi x v reducesTo_S32x192x1024_S_d0_1_2 h_S_) main_v11 main_c_3
  let main_v13 : IVec S_ 1 := andi main_v8 main_v12
  let main_v14 : FVec F S32x192 .f32 := Host.absf main_arg3
  let main_cst_4 : FVec F S_ .f32 := constant S_ .f32 0x7F800000#32
  let main_v15 : FVec F S32x192 .f32 := broadcastInDim S32x192 ![] bcast_S_S32x192 main_cst_4
  let main_v16 : IVec S32x192 1 := cmpf .olt main_v14 main_v15
  fn_part1 (F := F) main_arg4 main_arg5 main_v13 main_v16
-- ==== Kernel.lean ====
abbrev S32x192x1024 : Shape := ⟨3, ![32, 192, 1024]⟩
abbrev S32x192 : Shape := ⟨2, ![32, 192]⟩
abbrev S32x1x192 : Shape := ⟨3, ![32, 1, 192]⟩
abbrev S32x192x192 : Shape := ⟨3, ![32, 192, 192]⟩
abbrev S2x192x1024 : Shape := ⟨3, ![2, 192, 1024]⟩
abbrev S2x1x192 : Shape := ⟨3, ![2, 1, 192]⟩
abbrev S2x192x192 : Shape := ⟨3, ![2, 192, 192]⟩
abbrev S1x192x1024 : Shape := ⟨3, ![1, 192, 1024]⟩
abbrev S192x1024 : Shape := ⟨2, ![192, 1024]⟩
abbrev S1x1x192 : Shape := ⟨3, ![1, 1, 192]⟩
abbrev S192 : Shape := ⟨1, ![192]⟩
abbrev S192x192 : Shape := ⟨2, ![192, 192]⟩
abbrev S1x192 : Shape := ⟨2, ![1, 192]⟩
abbrev S192x1 : Shape := ⟨2, ![192, 1]⟩
abbrev S1x192x192 : Shape := ⟨3, ![1, 192, 192]⟩

abbrev nBuf : Space → Nat
  | .hbm => 18
  | .vmem => 32
  | .smem => 0
  | _ => 0

abbrev bufTy : (tb : Table) → Fin (tcTables nBuf tb) → BufTy
  | .hbm, ⟨0, _⟩ => ⟨S32x192x1024, .f32⟩
  | .hbm, ⟨1, _⟩ => ⟨S32x192, .f32⟩
  | .hbm, ⟨2, _⟩ => ⟨S32x192x1024, .f32⟩
  | .hbm, ⟨3, _⟩ => ⟨S32x192, .f32⟩
  | .hbm, ⟨4, _⟩ => ⟨S32x192x1024, .f32⟩
  | .hbm, ⟨5, _⟩ => ⟨S32x192x1024, .f32⟩
  | .hbm, ⟨6, _⟩ => ⟨S32x1x192, .f32⟩
  | .hbm, ⟨7, _⟩ => ⟨S32x1x192, .f32⟩
  | .hbm, ⟨8, _⟩ => ⟨S32x192x192, .f32⟩
  | .hbm, ⟨9, _⟩ => ⟨S32x192x192, .f32⟩
  | .hbm, ⟨10, _⟩ => ⟨S32x192x1024, .f32⟩
  | .hbm, ⟨11, _⟩ => ⟨S32x192x1024, .f32⟩
  | .hbm, ⟨12, _⟩ => ⟨S32x192x1024, .f32⟩
  | .hbm, ⟨13, _⟩ => ⟨S32x192x1024, .f32⟩
  | .hbm, ⟨14, _⟩ => ⟨S32x192x192, .f32⟩
  | .hbm, ⟨15, _⟩ => ⟨S32x192x192, .f32⟩
  | .hbm, ⟨16, _⟩ => ⟨S32x192x192, .f32⟩
  | .hbm, ⟨17, _⟩ => ⟨S32x192x192, .f32⟩
  | .local _ .vmem, ⟨0, _⟩ => ⟨S2x192x1024, .f32⟩
  | .local _ .vmem, ⟨1, _⟩ => ⟨S2x192x1024, .f32⟩
  | .local _ .vmem, ⟨2, _⟩ => ⟨S2x1x192, .f32⟩
  | .local _ .vmem, ⟨3, _⟩ => ⟨S2x1x192, .f32⟩
  | .local _ .vmem, ⟨4, _⟩ => ⟨S2x192x1024, .f32⟩
  | .local _ .vmem, ⟨5, _⟩ => ⟨S2x192x1024, .f32⟩
  | .local _ .vmem, ⟨6, _⟩ => ⟨S2x1x192, .f32⟩
  | .local _ .vmem, ⟨7, _⟩ => ⟨S2x1x192, .f32⟩
  | .local _ .vmem, ⟨8, _⟩ => ⟨S2x192x1024, .f32⟩
  | .local _ .vmem, ⟨9, _⟩ => ⟨S2x192x1024, .f32⟩
  | .local _ .vmem, ⟨10, _⟩ => ⟨S2x192x1024, .f32⟩
  | .local _ .vmem, ⟨11, _⟩ => ⟨S2x192x1024, .f32⟩
  | .local _ .vmem, ⟨12, _⟩ => ⟨S2x192x192, .f32⟩
  | .local _ .vmem, ⟨13, _⟩ => ⟨S2x192x192, .f32⟩
  | .local _ .vmem, ⟨14, _⟩ => ⟨S2x192x192, .f32⟩
  | .local _ .vmem, ⟨15, _⟩ => ⟨S2x192x192, .f32⟩
  | .local _ .vmem, ⟨16, _⟩ => ⟨S2x192x1024, .f32⟩
  | .local _ .vmem, ⟨17, _⟩ => ⟨S2x192x1024, .f32⟩
  | .local _ .vmem, ⟨18, _⟩ => ⟨S2x192x1024, .f32⟩
  | .local _ .vmem, ⟨19, _⟩ => ⟨S2x192x1024, .f32⟩
  | .local _ .vmem, ⟨20, _⟩ => ⟨S2x192x1024, .f32⟩
  | .local _ .vmem, ⟨21, _⟩ => ⟨S2x192x1024, .f32⟩
  | .local _ .vmem, ⟨22, _⟩ => ⟨S2x192x1024, .f32⟩
  | .local _ .vmem, ⟨23, _⟩ => ⟨S2x192x1024, .f32⟩
  | .local _ .vmem, ⟨24, _⟩ => ⟨S2x192x192, .f32⟩
  | .local _ .vmem, ⟨25, _⟩ => ⟨S2x192x192, .f32⟩
  | .local _ .vmem, ⟨26, _⟩ => ⟨S2x192x192, .f32⟩
  | .local _ .vmem, ⟨27, _⟩ => ⟨S2x192x192, .f32⟩
  | .local _ .vmem, ⟨28, _⟩ => ⟨S2x192x192, .f32⟩
  | .local _ .vmem, ⟨29, _⟩ => ⟨S2x192x192, .f32⟩
  | .local _ .vmem, ⟨30, _⟩ => ⟨S2x192x192, .f32⟩
  | .local _ .vmem, ⟨31, _⟩ => ⟨S2x192x192, .f32⟩
  | _, _ => ⟨S32x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev main_v2_8 : Ref sig .tc := ⟨.hbm, 16, rfl⟩
abbrev main_v2_9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x192x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x192x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x192x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x192x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x192x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x192x192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x192x192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x192x192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x192x192 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S32x192_S32x1x192_0_2 : S32x192.BroadcastsInDim S32x1x192 (![0, 2] : Fin 2 → Fin S32x1x192.rank)
  inb_S2x192x1024_S1x192x1024_0_0_0 : ∀ a, (![0, 0, 0] : Fin 3 → Nat) a + S1x192x1024.size a ≤ S2x192x1024.size a
  h_S1x192x1024 : 0 < S1x192x1024.numel
  shapeCasts_S1x192x1024_S192x1024 : S1x192x1024.ShapeCasts S192x1024
  inb_S2x1x192_S1x1x192_0_0_0 : ∀ a, (![0, 0, 0] : Fin 3 → Nat) a + S1x1x192.size a ≤ S2x1x192.size a
  h_S1x1x192 : 0 < S1x1x192.numel
  shapeCasts_S1x1x192_S192 : S1x1x192.ShapeCasts S192
  shapeCasts_S192_S1x192 : S192.ShapeCasts S1x192
  broadcasts_S1x192_S192x192 : S1x192.Broadcasts S192x192
  reduces_S192x192_S192 : S192x192.Reduces [1] S192
  shapeCasts_S192_S192x1 : S192.ShapeCasts S192x1
  broadcasts_S192x1_S192x192 : S192x1.Broadcasts S192x192
  transposes_S192x192_p1_0_S192x192 : S192x192.Transposes [1, 0] S192x192
  bitsLt_bf16_f32 : FTy.bits .bf16 < FTy.bits .f32
  broadcasts_S192x1_S192x1024 : S192x1.Broadcasts S192x1024
  inb_S2x192x192_S1x192x192_0_0_0 : ∀ a, (![0, 0, 0] : Fin 3 → Nat) a + S1x192x192.size a ≤ S2x192x192.size a
  h_S1x192x192 : 0 < S1x192x192.numel
  shapeCasts_S1x192x192_S192x192 : S1x192x192.ShapeCasts S192x192
  shapeCasts_S192x192_S1x192x192 : S192x192.ShapeCasts S1x192x192
  shapeCasts_S192x1024_S1x192x1024 : S192x1024.ShapeCasts S1x192x1024
  inb_S2x192x1024_S1x192x1024_1_0_0 : ∀ a, (![1, 0, 0] : Fin 3 → Nat) a + S1x192x1024.size a ≤ S2x192x1024.size a
  inb_S2x1x192_S1x1x192_1_0_0 : ∀ a, (![1, 0, 0] : Fin 3 → Nat) a + S1x1x192.size a ≤ S2x1x192.size a
  inb_S2x192x192_S1x192x192_1_0_0 : ∀ a, (![1, 0, 0] : Fin 3 → Nat) a + S1x192x192.size a ≤ S2x192x192.size a
  dot_S192x1024_S192x1024_S192x192_1_1_0_0_n_n_wf : DotDims.WF S192x1024 S192x1024 S192x192 [1] [1] [0] [0] [] []
  dot_S192x192_S192x1024_S192x1024_1_0_0_1_n_n_wf : DotDims.WF S192x192 S192x1024 S192x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x192x1024.size a ≤ S32x192x1024.size a
  hwx0_0 : ∀ i : grid0.Coords, EltTy.bits .f32 = 32 ∨ (Rect.block (s := S32x192x1024) S2x192x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x192.size a ≤ S32x1x192.size a
  hwx0_1 : ∀ i : grid0.Coords, EltTy.bits .f32 = 32 ∨ (Rect.block (s := S32x1x192) S2x1x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x192x1024.size a ≤ S32x192x1024.size a
  hwx0_2 : ∀ i : grid0.Coords, EltTy.bits .f32 = 32 ∨ (Rect.block (s := S32x192x1024) S2x192x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x192.size a ≤ S32x1x192.size a
  hwx0_3 : ∀ i : grid0.Coords, EltTy.bits .f32 = 32 ∨ (Rect.block (s := S32x1x192) S2x1x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x192x1024.size a ≤ S32x192x1024.size a
  hwx0_4 : ∀ i : grid0.Coords, EltTy.bits .f32 = 32 ∨ (Rect.block (s := S32x192x1024) S2x192x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x192x1024.size a ≤ S32x192x1024.size a
  hwx0_5 : ∀ i : grid0.Coords, EltTy.bits .f32 = 32 ∨ (Rect.block (s := S32x192x1024) S2x192x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x192x192.size a ≤ S32x192x192.size a
  hwx0_6 : ∀ i : grid0.Coords, EltTy.bits .f32 = 32 ∨ (Rect.block (s := S32x192x192) S2x192x192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x192x192.size a ≤ S32x192x192.size a
  hwx0_7 : ∀ i : grid0.Coords, EltTy.bits .f32 = 32 ∨ (Rect.block (s := S32x192x192) S2x192x192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x192x1024.size a ≤ S32x192x1024.size a
  hwx0_8 : ∀ i : grid0.Coords, EltTy.bits .f32 = 32 ∨ (Rect.block (s := S32x192x1024) S2x192x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x192x1024.size a ≤ S32x192x1024.size a
  hwx0_9 : ∀ i : grid0.Coords, EltTy.bits .f32 = 32 ∨ (Rect.block (s := S32x192x1024) S2x192x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2x192x1024.size a ≤ S32x192x1024.size a
  hwx0_10 : ∀ i : grid0.Coords, EltTy.bits .f32 = 32 ∨ (Rect.block (s := S32x192x1024) S2x192x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x192x1024.size a ≤ S32x192x1024.size a
  hwx0_11 : ∀ i : grid0.Coords, EltTy.bits .f32 = 32 ∨ (Rect.block (s := S32x192x1024) S2x192x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2x192x192.size a ≤ S32x192x192.size a
  hwx0_12 : ∀ i : grid0.Coords, EltTy.bits .f32 = 32 ∨ (Rect.block (s := S32x192x192) S2x192x192.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2x192x192.size a ≤ S32x192x192.size a
  hwx0_13 : ∀ i : grid0.Coords, EltTy.bits .f32 = 32 ∨ (Rect.block (s := S32x192x192) S2x192x192.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2x192x192.size a ≤ S32x192x192.size a
  hwx0_14 : ∀ i : grid0.Coords, EltTy.bits .f32 = 32 ∨ (Rect.block (s := S32x192x192) S2x192x192.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2x192x192.size a ≤ S32x192x192.size a
  hwx0_15 : ∀ i : grid0.Coords, EltTy.bits .f32 = 32 ∨ (Rect.block (s := S32x192x192) S2x192x192.size (cc0_transform_15 i) (hinb0_15 i)).WholeWords (EltTy.packing .f32)

variable [Facts₀]

def dot_S192x1024_S192x1024_S192x192_1_1_0_0_n_n : DotDims S192x1024 S192x1024 S192x192 where
  lhsContracting := [1]
  rhsContracting := [1]
  lhsNonContracting := [0]
  rhsNonContracting := [0]
  lhsBatch := []
  rhsBatch := []
  wf := dot_S192x1024_S192x1024_S192x192_1_1_0_0_n_n_wf
def dot_S192x192_S192x1024_S192x1024_1_0_0_1_n_n : DotDims S192x192 S192x1024 S192x1024 where
  lhsContracting := [1]
  rhsContracting := [0]
  lhsNonContracting := [0]
  rhsNonContracting := [1]
  lhsBatch := []
  rhsBatch := []
  wf := dot_S192x192_S192x1024_S192x1024_1_0_0_1_n_n_wf

abbrev win0_0 : Pipeline.Window sig grid0 :=
  Pipeline.Window.ofSpec (Memref.whole main_arg0) S2x192x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x192x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x1x192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x192x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x192x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S2x192x192.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S2x192x192.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_2) S2x192x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_3) S2x192x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_4) S2x192x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_5) S2x192x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_6) S2x192x192.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2_7) S2x192x192.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v2_8) S2x192x192.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v2_9) S2x192x192.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S32x192x1024 : Shape := ⟨3, ![32, 192, 1024]⟩
abbrev S32x192 : Shape := ⟨2, ![32, 192]⟩
abbrev S32x192x192 : Shape := ⟨3, ![32, 192, 192]⟩
abbrev S32x1x192 : Shape := ⟨3, ![32, 1, 192]⟩
abbrev S_ : Shape := ⟨0, ![]⟩
abbrev S32x192x1 : Shape := ⟨3, ![32, 192, 1]⟩

abbrev nBuf : Space → Nat
  | .hbm => 136
  | .vmem => 0
  | .smem => 0
  | _ => 0

abbrev hbmTy0_0 (i : Nat) : BufTy := match i % 128 with
  | 0 => ⟨S32x192x1024, .f32⟩
  | 1 => ⟨S32x192, .f32⟩
  | 2 => ⟨S32x192x1024, .f32⟩
  | 3 => ⟨S32x192, .f32⟩
  | 4 => ⟨S32x192x1024, .f32⟩
  | 5 => ⟨S32x192x1024, .f32⟩
  | 6 => ⟨S32x192x192, .f32⟩
  | 7 => ⟨S32x192x192, .f32⟩
  | 8 => ⟨S32x1x192, .f32⟩
  | 9 => ⟨S32x192x192, .f32⟩
  | 10 => ⟨S32x192x192, .f32⟩
  | 11 => ⟨S_, .f32⟩
  | 12 => ⟨S32x192, .f32⟩
  | 13 => ⟨S_, .f32⟩
  | 14 => ⟨S32x192, .f32⟩
  | 15 => ⟨S32x192, .f32⟩
  | 16 => ⟨S32x192x1, .f32⟩
  | 17 => ⟨S32x192x192, .f32⟩
  | 18 => ⟨S32x192x192, .f32⟩
  | 19 => ⟨S32x192x192, .f32⟩
  | 20 => ⟨S_, .f32⟩
  | 21 => ⟨S32x192, .f32⟩
  | 22 => ⟨S32x192x1, .f32⟩
  | 23 => ⟨S32x192x192, .f32⟩
  | 24 => ⟨S32x192x192, .f32⟩
  | 25 => ⟨S32x192x192, .f32⟩
  | 26 => ⟨S32x192x192, .f32⟩
  | 27 => ⟨S_, .f32⟩
  | 28 => ⟨S32x192, .f32⟩
  | 29 => ⟨S32x192x1, .f32⟩
  | 30 => ⟨S_, .f32⟩
  | 31 => ⟨S32x192x1, .f32⟩
  | 32 => ⟨S32x192x1, .f32⟩
  | 33 => ⟨S32x192x192, .f32⟩
  | 34 => ⟨S32x192x192, .f32⟩
  | 35 => ⟨S32x192x192, .f32⟩
  | 36 => ⟨S32x1x192, .f32⟩
  | 37 => ⟨S32x192x192, .f32⟩
  | 38 => ⟨S32x192x192, .f32⟩
  | 39 => ⟨S_, .f32⟩
  | 40 => ⟨S32x192, .f32⟩
  | 41 => ⟨S_, .f32⟩
  | 42 => ⟨S32x192, .f32⟩
  | 43 => ⟨S32x192, .f32⟩
  | 44 => ⟨S32x192x1, .f32⟩
  | 45 => ⟨S32x192x192, .f32⟩
  | 46 => ⟨S32x192x192, .f32⟩
  | 47 => ⟨S32x192x192, .f32⟩
  | 48 => ⟨S_, .f32⟩
  | 49 => ⟨S32x192, .f32⟩
  | 50 => ⟨S32x192x1, .f32⟩
  | 51 => ⟨S32x192x192, .f32⟩
  | 52 => ⟨S32x192x192, .f32⟩
  | 53 => ⟨S32x192x192, .f32⟩
  | 54 => ⟨S32x192x192, .f32⟩
  | 55 => ⟨S_, .f32⟩
  | 56 => ⟨S32x192, .f32⟩
  | 57 => ⟨S32x192x1, .f32⟩
  | 58 => ⟨S_, .f32⟩
  | 59 => ⟨S32x192x1, .f32⟩
  | 60 => ⟨S32x192x1, .f32⟩
  | 61 => ⟨S32x192x192, .f32⟩
  | 62 => ⟨S32x192x192, .f32⟩
  | 63 => ⟨S32x1x192, .f32⟩
  | 64 => ⟨S32x192x192, .f32⟩
  | 65 => ⟨S32x192x192, .f32⟩
  | 66 => ⟨S_, .f32⟩
  | 67 => ⟨S32x192, .f32⟩
  | 68 => ⟨S_, .f32⟩
  | 69 => ⟨S32x192, .f32⟩
  | 70 => ⟨S32x192, .f32⟩
  | 71 => ⟨S32x192x1, .f32⟩
  | 72 => ⟨S32x192x192, .f32⟩
  | 73 => ⟨S32x192x192, .f32⟩
  | 74 => ⟨S32x192x192, .f32⟩
  | 75 => ⟨S_, .f32⟩
  | 76 => ⟨S32x192, .f32⟩
  | 77 => ⟨S32x192x1, .f32⟩
  | 78 => ⟨S32x192x192, .f32⟩
  | 79 => ⟨S32x192x192, .f32⟩
  | 80 => ⟨S32x192x192, .f32⟩
  | 81 => ⟨S32x192x192, .f32⟩
  | 82 => ⟨S_, .f32⟩
  | 83 => ⟨S32x192, .f32⟩
  | 84 => ⟨S32x192x1, .f32⟩
  | 85 => ⟨S_, .f32⟩
  | 86 => ⟨S32x192x1, .f32⟩
  | 87 => ⟨S32x192x1, .f32⟩
  | 88 => ⟨S32x192x192, .f32⟩
  | 89 => ⟨S32x192x192, .f32⟩
  | 90 => ⟨S32x192x192, .f32⟩
  | 91 => ⟨S32x1x192, .f32⟩
  | 92 => ⟨S32x192x192, .f32⟩
  | 93 => ⟨S32x192x192, .f32⟩
  | 94 => ⟨S_, .f32⟩
  | 95 => ⟨S32x192, .f32⟩
  | 96 => ⟨S_, .f32⟩
  | 97 => ⟨S32x192, .f32⟩
  | 98 => ⟨S32x192, .f32⟩
  | 99 => ⟨S32x192x1, .f32⟩
  | 100 => ⟨S32x192x192, .f32⟩
  | 101 => ⟨S32x192x192, .f32⟩
  | 102 => ⟨S32x192x192, .f32⟩
  | 103 => ⟨S_, .f32⟩
  | 104 => ⟨S32x192, .f32⟩
  | 105 => ⟨S32x192x1, .f32⟩
  | 106 => ⟨S32x192x192, .f32⟩
  | 107 => ⟨S32x192x192, .f32⟩
  | 108 => ⟨S32x192x192, .f32⟩
  | 109 => ⟨S32x192x192, .f32⟩
  | 110 => ⟨S_, .f32⟩
  | 111 => ⟨S32x192, .f32⟩
  | 112 => ⟨S32x192x1, .f32⟩
  | 113 => ⟨S_, .f32⟩
  | 114 => ⟨S32x192x1, .f32⟩
  | 115 => ⟨S32x192x1, .f32⟩
  | 116 => ⟨S32x192x192, .f32⟩
  | 117 => ⟨S32x192x192, .f32⟩
  | 118 => ⟨S32x192x192, .f32⟩
  | 119 => ⟨S32x192x192, .f32⟩
  | 120 => ⟨S32x192x1024, .f32⟩
  | 121 => ⟨S32x192x1, .f32⟩
  | 122 => ⟨S32x192x1024, .f32⟩
  | 123 => ⟨S32x192x1024, .f32⟩
  | 124 => ⟨S32x192x1024, .f32⟩
  | 125 => ⟨S32x192x1, .f32⟩
  | 126 => ⟨S32x192x1024, .f32⟩
  | 127 => ⟨S32x192x1024, .f32⟩
  | _ => ⟨S32x192x1024, .f32⟩

abbrev hbmTy0_1 (i : Nat) : BufTy := match i % 128 with
  | 0 => ⟨S32x192x1024, .f32⟩
  | 1 => ⟨S32x192x1, .f32⟩
  | 2 => ⟨S32x192x1024, .f32⟩
  | 3 => ⟨S32x192x1024, .f32⟩
  | 4 => ⟨S32x192x1024, .f32⟩
  | 5 => ⟨S32x192x1, .f32⟩
  | 6 => ⟨S32x192x1024, .f32⟩
  | 7 => ⟨S32x192x1024, .f32⟩
  | _ => ⟨S32x192x1024, .f32⟩

abbrev hbmTy (i : Nat) : BufTy := match i / 128 with
  | 0 => hbmTy0_0 i
  | 1 => hbmTy0_1 i
  | _ => ⟨S32x192x1024, .f32⟩

abbrev bufTy : (tb : Table) → Fin (tcTables nBuf tb) → BufTy
  | .hbm, ⟨i, _⟩ => hbmTy i
  | _, _ => ⟨S32x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_v87 : Ref sig .tc := ⟨.hbm, 112, rfl⟩
abbrev main_cst_18 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩

abbrev nD : Nat := 1
abbrev τ : Topo := Topo.v7x

variable {F : FTy → Type} [FloatOps F]

class Facts₀ : Prop where
  bcast_S32x192_S32x1x192_0_2 : S32x192.BroadcastsInDim S32x1x192 (![0, 2] : Fin 2 → Fin S32x1x192.rank)
  bcast_S32x1x192_S32x192x192_0_1_2 : S32x1x192.BroadcastsInDim S32x192x192 (![0, 1, 2] : Fin 3 → Fin S32x192x192.rank)
  reducesTo_S32x192x192_S32x192_d2 : S32x192x192.ReducesTo [2] S32x192
  h_S_ : 0 < S_.numel
  bcast_S_S32x192 : S_.BroadcastsInDim S32x192 (![] : Fin 0 → Fin S32x192.rank)
  bcast_S32x192_S32x192x1_0_1 : S32x192.BroadcastsInDim S32x192x1 (![0, 1] : Fin 2 → Fin S32x192x1.rank)
  bcast_S32x192x1_S32x192x192_0_1_2 : S32x192x1.BroadcastsInDim S32x192x192 (![0, 1, 2] : Fin 3 → Fin S32x192x192.rank)
  bcast_S_S32x192x1 : S_.BroadcastsInDim S32x192x1 (![] : Fin 0 → Fin S32x192x1.rank)
  transposes_S32x192x192_S32x192x192_0_2_1 : S32x192x192.Transposes [0, 2, 1] S32x192x192
  bcast_S32x192x1_S32x192x1024_0_1_2 : S32x192x1.BroadcastsInDim S32x192x1024 (![0, 1, 2] : Fin 3 → Fin S32x192x1024.rank)
  dot_S32x192x1024_S32x192x1024_S32x192x192_2_2_1_1_0_0_wf : DotDims.WF S32x192x1024 S32x192x1024 S32x192x192 [2] [2] [1] [1] [0] [0]
  dot_S32x192x192_S32x192x1024_S32x192x1024_2_1_1_2_0_0_wf : DotDims.WF S32x192x192 S32x192x1024 S32x192x1024 [2] [1] [1] [2] [0] [0]

variable [Facts₀]

def dot_S32x192x1024_S32x192x1024_S32x192x192_2_2_1_1_0_0 : DotDims S32x192x1024 S32x192x1024 S32x192x192 where
  lhsContracting := [2]
  rhsContracting := [2]
  lhsNonContracting := [1]
  rhsNonContracting := [1]
  lhsBatch := [0]
  rhsBatch := [0]
  wf := dot_S32x192x1024_S32x192x1024_S32x192x192_2_2_1_1_0_0_wf
def dot_S32x192x192_S32x192x1024_S32x192x1024_2_1_1_2_0_0 : DotDims S32x192x192 S32x192x1024 S32x192x1024 where
  lhsContracting := [2]
  rhsContracting := [1]
  lhsNonContracting := [1]
  rhsNonContracting := [2]
  lhsBatch := [0]
  rhsBatch := [0]
  wf := dot_S32x192x192_S32x192x1024_S32x192x1024_2_1_1_2_0_0_wf

class Facts : Prop extends Facts₀ where

variable [Facts]
-- ==== Proof.AttnMath.lean ====
/-
  Row-level mathematics of masked attention on the extended reals.

  A score row `x` and a 0/1 (in fact arbitrary) mask row `m` give the masked softmax

      y k = x k * m k,   M = max_k y k (from the literal bottom value),   e k = exp (y k - M),
      q k = e k / (Σ e) * m k,      out j = q j / ((Σ q) + eps),

  every operation the textbook one on the extended reals (`Ideal.div`, `Ideal.exp`).  Both programs of the
  certificate compute exactly this row function; nothing here depends on either program.
-/
import Idealize.ShloMosaic.PureOps.Ideal
import Mathlib.Algebra.BigOperators.Group.Finset.Basic
import Mathlib.Data.Finset.Fold

noncomputable section

namespace Cert.Attn

open Idealize.ShloMosaic

variable {n : Nat}

/-- The maximum of a row, folded from the value `bot` (the programs' literal for minus infinity). -/
def rowMax (bot : EReal) (y : Fin n → EReal) : EReal := (Finset.univ : Finset (Fin n)).fold max bot y

/-- Taking the maximum with the fold's own starting value changes nothing: the fold is at least that value. -/
theorem max_bot_rowMax (bot : EReal) (y : Fin n → EReal) : max bot (rowMax bot y) = rowMax bot y :=
  max_eq_right (Finset.le_fold_max bot |>.mpr (Or.inl le_rfl))

/-- The shifted exponentials of a masked score row. -/
def expRow (bot : EReal) (x m : Fin n → EReal) (k : Fin n) : EReal :=
  Ideal.exp (x k * m k - rowMax bot (fun k' => x k' * m k'))

/-- The softmax of the masked scores, masked again. -/
def probRow (bot : EReal) (x m : Fin n → EReal) (k : Fin n) : EReal :=
  Ideal.div (expRow bot x m k) (∑ k', expRow bot x m k') * m k

/-- The masked softmax of a row: the masked probabilities renormalised by their sum plus `eps`. -/
def maskedSoftmax (bot eps : EReal) (x m : Fin n → EReal) (j : Fin n) : EReal :=
  Ideal.div (probRow bot x m j) ((∑ k, probRow bot x m k) + eps)

/-! ## One example: scores, the two attention directions, weighted sums -/

variable {f : Nat}

/-- The score of row `i` of `A` against row `j` of `B`: their inner product over the features. -/
def dotRows (A B : Fin n → Fin f → EReal) (i j : Fin n) : EReal := ∑ k, A i k * B j k

/-- Attention of row `i` of `A` over the rows of `B` masked by `M`: the masked softmax of row `i` of the scores. -/
def attnOver (bot eps : EReal) (A B : Fin n → Fin f → EReal) (M : Fin n → EReal) (i j : Fin n) : EReal :=
  maskedSoftmax bot eps (fun k => dotRows A B i k) M j

/-- Attention of row `j` of `B` over the rows of `A` masked by `M`: the masked softmax of column `j` of the scores. -/
def attnBack (bot eps : EReal) (A B : Fin n → Fin f → EReal) (M : Fin n → EReal) (j i : Fin n) : EReal :=
  maskedSoftmax bot eps (fun k => dotRows A B k j) M i

/-- The rows of `T` summed with the weights `W i ·`, scaled by the mask entry of row `i`. -/
def weighted (T : Fin n → Fin f → EReal) (W : Fin n → Fin n → EReal) (M : Fin n → EReal) (i : Fin n) (d : Fin f) : EReal :=
  (∑ k, W i k * T k d) * M i

end Cert.Attn

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelRows.lean ====
/-
  One example of the batch inside the kernel body, as vector-level functions and read at an index.

  For one example the body forms the score matrix `p · hᵀ` (a contraction over the 1024 features into a zero
  accumulator), applies the masked softmax along each row, and forms mask-weighted sums `(w · T) * mask`.  The
  vector-level functions below are the body's operations in the body's order; read at an index at the ideal
  instance each row is the row mathematics of AttnMath: the row maximum is a fold of `max`, a lane sum is a
  finite sum, the matrix products are finite sums of products, and the layout operations (a vector viewed as a
  row or a column and laid along the other axis) only move coordinates.
-/
import proofs.«427880_j88742614270726_3_alg».proof.Proof.Gen.KernelIdeal.Skeleton
import proofs.«427880_j88742614270726_3_alg».proof.Proof.AttnMath
import proofs.«427880_j88742614270726_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ex

open Cert.KernelIdeal Cert.KernelIdeal.Gen Idealize.ShloMosaic Idealize.ShloMosaic.ValueIdx Cert.Attn Cert.LibKeepdims

/-- The programs' literal for minus infinity, the start of a row maximum. -/
abbrev botLit : EReal := Ideal.ofBits .f32 0xFF800000#32
/-- The programs' literal added to the renormalising sum. -/
abbrev epsLit : EReal := Ideal.ofBits .f32 0x29E12E13#32

section Generic

variable {F : FTy → Type} [FloatOps F]

/-- Scores of one example: `p · hᵀ`, contracted over the features, accumulated from zero. -/
def scores (p h : FVec F S192x1024 .f32) : FVec F S192x192 .f32 :=
  matmul dot_S192x1024_S192x1024_S192x192_1_1_0_0_n_n (some .fp32) p h (constant S192x192 .f32 0x00000000#32)

/-- A mask vector laid along every row of a square matrix. -/
def maskRows (mk : FVec F S192 .f32) : FVec F S192x192 .f32 :=
  broadcastTo S192x192 (shapeCast S1x192 mk shapeCasts_S192_S1x192) broadcasts_S1x192_S192x192

/-- Row maxima as a column. -/
def maxCol (y : FVec F S192x192 .f32) : FVec F S192x1 .f32 :=
  shapeCast S192x1 (multiReduction .maximumf [1] S192 y 0xFF800000#32 reduces_S192x192_S192 (.inl rfl) rfl) shapeCasts_S192_S192x1

/-- Row sums as a column. -/
def sumCol (y : FVec F S192x192 .f32) : FVec F S192x1 .f32 :=
  shapeCast S192x1 (multiReduction .add [1] S192 y 0x00000000#32 reduces_S192x192_S192 (.inl rfl) rfl) shapeCasts_S192_S192x1

/-- Exponentials of a matrix shifted by its row maxima. -/
def expShift (y : FVec F S192x192 .f32) : FVec F S192x192 .f32 :=
  exp (subf y (broadcastTo S192x192 (maxCol y) broadcasts_S192x1_S192x192))

/-- Softmax of the masked scores along rows, masked again. -/
def probs (s : FVec F S192x192 .f32) (mk : FVec F S192 .f32) : FVec F S192x192 .f32 :=
  mulf (divf (expShift (mulf s (maskRows mk))) (broadcastTo S192x192 (sumCol (expShift (mulf s (maskRows mk)))) broadcasts_S192x1_S192x192))
    (maskRows mk)

/-- Each row divided by its sum plus the small literal. -/
def renorm (q : FVec F S192x192 .f32) : FVec F S192x192 .f32 :=
  divf q (broadcastTo S192x192 (addf (sumCol q) (broadcast S192x1 (Scalar.ofBits .f32 0x29E12E13#32))) broadcasts_S192x1_S192x192)

/-- The masked softmax of a score matrix along rows. -/
def msoft (s : FVec F S192x192 .f32) (mk : FVec F S192 .f32) : FVec F S192x192 .f32 := renorm (probs s mk)

/-- A weighted sum of the rows of `T` by the weights `w`, each result row scaled by its mask entry. -/
def wsum (T : FVec F S192x1024 .f32) (w : FVec F S192x192 .f32) (mk : FVec F S192 .f32) : FVec F S192x1024 .f32 :=
  mulf (matmul dot_S192x192_S192x1024_S192x1024_1_0_0_1_n_n none (truncf .bf16 w bitsLt_bf16_f32) (truncf .bf16 T bitsLt_bf16_f32)
      (constant S192x1024 .f32 0x00000000#32))
    (broadcastTo S192x1024 (shapeCast S192x1 mk shapeCasts_S192_S192x1) broadcasts_S192x1_S192x1024)

/-- The transpose of a square matrix. -/
def tr (s : FVec F S192x192 .f32) : FVec F S192x192 .f32 := transpose S192x192 [1, 0] s transposes_S192x192_p1_0_S192x192

end Generic

/-! ## Read at an index, at the ideal instance -/

theorem lift_row (i k : Fin 192) : reduces_S192x192_S192.lift (ix1 i) k = ix2 i k :=
  funext fun a => Fin.ext (by match a with | ⟨0, _⟩ => rfl | ⟨1, _⟩ => rfl)

theorem maskRows_apply (mk : FVec Ideal S192 .f32) (i j : Fin 192) : maskRows mk (ix2 i j) = mk (ix1 j) := by
  unfold maskRows
  rw [broadcastTo_1b_ab_apply, shapeCast_a_1a_apply]

theorem maxCol_apply (y : FVec Ideal S192x192 .f32) (i : Fin 192) (u : Fin 1) :
    maxCol y (ix2 i u) = rowMax botLit (fun k => y (ix2 i k)) := by
  unfold maxCol
  rw [shapeCast_a_a1_apply]
  refine (Ideal.multiReduction_maximumf_single y 0xFF800000#32 reduces_S192x192_S192 (.inl rfl) rfl (ix1 i)).trans ?_
  show (Finset.univ : Finset (Fin 192)).fold max botLit (y ∘ reduces_S192x192_S192.lift (ix1 i)) = _
  unfold rowMax
  exact congrArg (fun f => Finset.fold max botLit f (Finset.univ : Finset (Fin 192))) (funext fun k => congrArg y (lift_row i k))

theorem sumCol_apply (y : FVec Ideal S192x192 .f32) (i : Fin 192) (u : Fin 1) :
    sumCol y (ix2 i u) = ∑ k : Fin 192, y (ix2 i k) := by
  unfold sumCol
  rw [shapeCast_a_a1_apply]
  refine (Ideal.multiReduction_add_single y 0x00000000#32 reduces_S192x192_S192 (.inl rfl) rfl (ix1 i)).trans ?_
  exact Finset.sum_congr rfl fun k _ => congrArg y (lift_row i k)

theorem expShift_apply (y : FVec Ideal S192x192 .f32) (i j : Fin 192) :
    expShift y (ix2 i j) = Ideal.exp (y (ix2 i j) - rowMax botLit (fun k => y (ix2 i k))) := by
  unfold expShift
  show Ideal.exp (y (ix2 i j) - broadcastTo S192x192 (maxCol y) broadcasts_S192x1_S192x192 (ix2 i j)) = _
  rw [broadcastTo_a1_ab_apply, maxCol_apply]

theorem probs_apply (s : FVec Ideal S192x192 .f32) (mk : FVec Ideal S192 .f32) (i j : Fin 192) :
    probs s mk (ix2 i j) = probRow botLit (fun k => s (ix2 i k)) (fun k => mk (ix1 k)) j := by
  unfold probs probRow expRow
  show Ideal.div (expShift (mulf s (maskRows mk)) (ix2 i j))
      (broadcastTo S192x192 (sumCol (expShift (mulf s (maskRows mk)))) broadcasts_S192x1_S192x192 (ix2 i j)) * maskRows mk (ix2 i j) = _
  rw [broadcastTo_a1_ab_apply, sumCol_apply, maskRows_apply]
  simp only [expShift_apply, mulf_apply, maskRows_apply]

theorem renorm_apply (q : FVec Ideal S192x192 .f32) (i j : Fin 192) :
    renorm q (ix2 i j) = Ideal.div (q (ix2 i j)) ((∑ k : Fin 192, q (ix2 i k)) + epsLit) := by
  unfold renorm
  show Ideal.div (q (ix2 i j)) (broadcastTo S192x192 (addf (sumCol q) (broadcast S192x1 (Scalar.ofBits .f32 0x29E12E13#32))) broadcasts_S192x1_S192x192 (ix2 i j)) = _
  rw [broadcastTo_a1_ab_apply, addf_apply, sumCol_apply]
  rfl

theorem msoft_apply (s : FVec Ideal S192x192 .f32) (mk : FVec Ideal S192 .f32) (i j : Fin 192) :
    msoft s mk (ix2 i j) = maskedSoftmax botLit epsLit (fun k => s (ix2 i k)) (fun k => mk (ix1 k)) j := by
  unfold msoft maskedSoftmax
  rw [renorm_apply]
  simp only [probs_apply]

theorem tr_apply (s : FVec Ideal S192x192 .f32) (i j : Fin 192) : tr s (ix2 i j) = s (ix2 j i) := by
  unfold tr
  rw [transpose_ix2_apply]

end Cert.KernelIdeal.Ex

end
-- ==== Proof.KernelProducts.lean ====
/-
  The kernel body's two matrix products read at an index at the ideal instance: the scores of one example,
  `(p · hᵀ)[i, j] = Σ_k p[i, k] · h[j, k]`, and a weighted sum `((w · T) * mask)[i, d] = (Σ_k w[i, k] · T[k, d]) · mask[i]`.
  Each product accumulates into a zero matrix, so it is the bare sum; narrowing the operands' format is the identity
  on extended reals.
-/
import proofs.«427880_j88742614270726_3_alg».proof.Proof.KernelRows

noncomputable section

namespace Cert.KernelIdeal.Ex

open Cert.KernelIdeal Cert.KernelIdeal.Gen Idealize.ShloMosaic Idealize.ShloMosaic.ValueIdx Cert.Attn Cert.LibKeepdims

/-! ## The score product: both operands contracted on their feature axis -/

theorem sc_lhs_0 (i : S192x192.Idx) (q : dot_S192x1024_S192x1024_S192x192_1_1_0_0_n_n.contr.Idx) :
    (dot_S192x1024_S192x1024_S192x192_1_1_0_0_n_n.lhsIdx i q 0).val = (i 0).val := by
  unfold DotDims.lhsIdx
  rw [dif_neg (show ¬(0 : Fin S192x1024.rank) ∈ dot_S192x1024_S192x1024_S192x192_1_1_0_0_n_n.lhsBatch by decide), dif_pos (show (0 : Fin S192x1024.rank) ∈ dot_S192x1024_S192x1024_S192x192_1_1_0_0_n_n.lhsNonContracting by decide)]
  rfl
theorem sc_lhs_1 (i : S192x192.Idx) (q : dot_S192x1024_S192x1024_S192x192_1_1_0_0_n_n.contr.Idx) :
    (dot_S192x1024_S192x1024_S192x192_1_1_0_0_n_n.lhsIdx i q 1).val = (q ⟨0, by decide⟩).val :=
  dot_S192x1024_S192x1024_S192x192_1_1_0_0_n_n.lhsIdx_val_of_single rfl i q
theorem sc_rhs_0 (i : S192x192.Idx) (q : dot_S192x1024_S192x1024_S192x192_1_1_0_0_n_n.contr.Idx) :
    (dot_S192x1024_S192x1024_S192x192_1_1_0_0_n_n.rhsIdx i q 0).val = (i 1).val := by
  unfold DotDims.rhsIdx
  rw [dif_neg (show ¬(0 : Fin S192x1024.rank) ∈ dot_S192x1024_S192x1024_S192x192_1_1_0_0_n_n.rhsBatch by decide), dif_pos (show (0 : Fin S192x1024.rank) ∈ dot_S192x1024_S192x1024_S192x192_1_1_0_0_n_n.rhsNonContracting by decide)]
  rfl
theorem sc_rhs_1 (i : S192x192.Idx) (q : dot_S192x1024_S192x1024_S192x192_1_1_0_0_n_n.contr.Idx) :
    (dot_S192x1024_S192x1024_S192x192_1_1_0_0_n_n.rhsIdx i q 1).val = (q ⟨0, by decide⟩).val :=
  dot_S192x1024_S192x1024_S192x192_1_1_0_0_n_n.rhsIdx_val_of_single rfl i q

theorem scores_apply (p h : FVec Ideal S192x1024 .f32) (i j : Fin 192) :
    scores p h (ix2 i j) = ∑ k : Fin 1024, p (ix2 i k) * h (ix2 j k) := by
  unfold scores
  simp only [matmul]
  rw [Ideal.matmul_constant_zero_apply, ← Equiv.sum_comp (contrEquiv1 dot_S192x1024_S192x1024_S192x192_1_1_0_0_n_n 1024 rfl rfl).symm]
  refine Finset.sum_congr rfl fun k _ => ?_
  have hk := contrEquiv1_symm_val dot_S192x1024_S192x1024_S192x192_1_1_0_0_n_n 1024 rfl rfl k
  have el : dot_S192x1024_S192x1024_S192x192_1_1_0_0_n_n.lhsIdx (ix2 i j) ((contrEquiv1 dot_S192x1024_S192x1024_S192x192_1_1_0_0_n_n 1024 rfl rfl).symm k) = ix2 i k := funext fun a => Fin.ext (by
    match a with
    | ⟨0, _⟩ => exact sc_lhs_0 _ _
    | ⟨1, _⟩ => exact (sc_lhs_1 _ _).trans hk)
  have er : dot_S192x1024_S192x1024_S192x192_1_1_0_0_n_n.rhsIdx (ix2 i j) ((contrEquiv1 dot_S192x1024_S192x1024_S192x192_1_1_0_0_n_n 1024 rfl rfl).symm k) = ix2 j k := funext fun a => Fin.ext (by
    match a with
    | ⟨0, _⟩ => exact sc_rhs_0 _ _
    | ⟨1, _⟩ => exact (sc_rhs_1 _ _).trans hk)
  rw [el, er]

/-! ## The weighted sum: weights contracted on their last axis, the table on its first -/

theorem ws_lhs_0 (i : S192x1024.Idx) (q : dot_S192x192_S192x1024_S192x1024_1_0_0_1_n_n.contr.Idx) :
    (dot_S192x192_S192x1024_S192x1024_1_0_0_1_n_n.lhsIdx i q 0).val = (i 0).val := by
  unfold DotDims.lhsIdx
  rw [dif_neg (show ¬(0 : Fin S192x192.rank) ∈ dot_S192x192_S192x1024_S192x1024_1_0_0_1_n_n.lhsBatch by decide), dif_pos (show (0 : Fin S192x192.rank) ∈ dot_S192x192_S192x1024_S192x1024_1_0_0_1_n_n.lhsNonContracting by decide)]
  rfl
theorem ws_lhs_1 (i : S192x1024.Idx) (q : dot_S192x192_S192x1024_S192x1024_1_0_0_1_n_n.contr.Idx) :
    (dot_S192x192_S192x1024_S192x1024_1_0_0_1_n_n.lhsIdx i q 1).val = (q ⟨0, by decide⟩).val :=
  dot_S192x192_S192x1024_S192x1024_1_0_0_1_n_n.lhsIdx_val_of_single rfl i q
theorem ws_rhs_0 (i : S192x1024.Idx) (q : dot_S192x192_S192x1024_S192x1024_1_0_0_1_n_n.contr.Idx) :
    (dot_S192x192_S192x1024_S192x1024_1_0_0_1_n_n.rhsIdx i q 0).val = (q ⟨0, by decide⟩).val :=
  dot_S192x192_S192x1024_S192x1024_1_0_0_1_n_n.rhsIdx_val_of_single rfl i q
theorem ws_rhs_1 (i : S192x1024.Idx) (q : dot_S192x192_S192x1024_S192x1024_1_0_0_1_n_n.contr.Idx) :
    (dot_S192x192_S192x1024_S192x1024_1_0_0_1_n_n.rhsIdx i q 1).val = (i 1).val := by
  unfold DotDims.rhsIdx
  rw [dif_neg (show ¬(1 : Fin S192x1024.rank) ∈ dot_S192x192_S192x1024_S192x1024_1_0_0_1_n_n.rhsBatch by decide), dif_pos (show (1 : Fin S192x1024.rank) ∈ dot_S192x192_S192x1024_S192x1024_1_0_0_1_n_n.rhsNonContracting by decide)]
  rfl

theorem wsum_apply (T : FVec Ideal S192x1024 .f32) (w : FVec Ideal S192x192 .f32) (mk : FVec Ideal S192 .f32) (i : Fin 192) (d : Fin 1024) :
    wsum T w mk (ix2 i d) = (∑ k : Fin 192, w (ix2 i k) * T (ix2 k d)) * mk (ix1 i) := by
  unfold wsum
  rw [mulf_apply, broadcastTo_a1_ab_apply, shapeCast_a_a1_apply]
  congr 1
  simp only [matmul]
  rw [Ideal.matmul_constant_zero_apply, ← Equiv.sum_comp (contrEquiv1 dot_S192x192_S192x1024_S192x1024_1_0_0_1_n_n 192 rfl rfl).symm]
  refine Finset.sum_congr rfl fun k _ => ?_
  have hk := contrEquiv1_symm_val dot_S192x192_S192x1024_S192x1024_1_0_0_1_n_n 192 rfl rfl k
  have el : dot_S192x192_S192x1024_S192x1024_1_0_0_1_n_n.lhsIdx (ix2 i d) ((contrEquiv1 dot_S192x192_S192x1024_S192x1024_1_0_0_1_n_n 192 rfl rfl).symm k) = ix2 i k := funext fun a => Fin.ext (by
    match a with
    | ⟨0, _⟩ => exact ws_lhs_0 _ _
    | ⟨1, _⟩ => exact (ws_lhs_1 _ _).trans hk)
  have er : dot_S192x192_S192x1024_S192x1024_1_0_0_1_n_n.rhsIdx (ix2 i d) ((contrEquiv1 dot_S192x192_S192x1024_S192x1024_1_0_0_1_n_n 192 rfl rfl).symm k) = ix2 k d := funext fun a => Fin.ext (by
    match a with
    | ⟨0, _⟩ => exact (ws_rhs_0 _ _).trans hk
    | ⟨1, _⟩ => exact ws_rhs_1 _ _)
  rw [el, er]
  rfl

end Cert.KernelIdeal.Ex

end
-- ==== Proof.KernelBlocks.lean ====
/-
  What the kernel body leaves in an output block, example by example.

  A grid point holds two examples of the batch.  The body loads each example's six operands as slabs of the
  input blocks (a matrix slab `x[a, :, :]`, a mask slab `x[a, 0, :]`), computes the example's ten results,
  and stores each as slab `a` of the output block.  So an output block read at `(a, i, j)` is the example's
  result, as a function of the slabs, read at `(i, j)`.  The ten results of one example are named here as
  functions of its operands: the four attention maps (masked softmaxes of the scores and of their transposes,
  for the text pair and for the graph pair), their two sums, and the four mask-weighted sums.
-/
import proofs.«427880_j88742614270726_3_alg».proof.Proof.Gen.KernelIdeal.Frame
import proofs.«427880_j88742614270726_3_alg».proof.Proof.KernelProducts

noncomputable section

namespace Cert.KernelIdeal.Ex

open Cert.KernelIdeal Cert.KernelIdeal.Gen Idealize.ShloMosaic Idealize.ShloMosaic.ValueIdx Cert.Attn Cert.LibKeepdims

section Generic

variable {F : FTy → Type} [FloatOps F]

/-! ## One example's results -/

/-- Attention of the rows of `p` over the rows of `h`, masked by `hm`. -/
def attnPH (p h : FVec F S192x1024 .f32) (hm : FVec F S192 .f32) : FVec F S192x192 .f32 := msoft (scores p h) hm
/-- Attention of the rows of `h` over the rows of `p`, masked by `pm`: the softmax of the transposed scores. -/
def attnHP (p h : FVec F S192x1024 .f32) (pm : FVec F S192 .f32) : FVec F S192x192 .f32 := msoft (tr (scores p h)) pm
def totP (p h gp gh : FVec F S192x1024 .f32) (hm : FVec F S192 .f32) : FVec F S192x192 .f32 := addf (attnPH p h hm) (attnPH gp gh hm)
def totH (p h gp gh : FVec F S192x1024 .f32) (pm : FVec F S192 .f32) : FVec F S192x192 .f32 := addf (attnHP p h pm) (attnHP gp gh pm)
def attPrem (p h gp gh : FVec F S192x1024 .f32) (pm hm : FVec F S192 .f32) : FVec F S192x1024 .f32 := wsum h (totP p h gp gh hm) pm
def attHyp (p h gp gh : FVec F S192x1024 .f32) (pm hm : FVec F S192 .f32) : FVec F S192x1024 .f32 := wsum p (totH p h gp gh pm) hm
def attPremG (gp gh : FVec F S192x1024 .f32) (pm hm : FVec F S192 .f32) : FVec F S192x1024 .f32 := wsum gh (attnPH gp gh hm) pm
def attHypG (gp gh : FVec F S192x1024 .f32) (pm hm : FVec F S192 .f32) : FVec F S192x1024 .f32 := wsum gp (attnHP gp gh pm) hm

/-! ## Slabs of a block -/

/-- Example `a`'s matrix in a block of two. -/
def slab (a : Fin 2) (x : Vec F S2x192x1024 .f32) : FVec F S192x1024 .f32 := fun z => x (ix3 a (z 0) (z 1))
/-- Example `a`'s mask in a block of two single rows. -/
def mrow (a : Fin 2) (x : Vec F S2x1x192 .f32) : FVec F S192 .f32 := fun z => x (ix3 a (0 : Fin 1) (z 0))

/-- A loaded slab `[1, 192, 1024]` viewed as a matrix. -/
def sq (v : Vec F S1x192x1024 .f32) : FVec F S192x1024 .f32 := shapeCast S192x1024 v shapeCasts_S1x192x1024_S192x1024
/-- A loaded mask slab `[1, 1, 192]` viewed as a vector. -/
def sqm (v : Vec F S1x1x192 .f32) : FVec F S192 .f32 := shapeCast S192 v shapeCasts_S1x1x192_S192
/-- A square result viewed as a slab to store. -/
def up (y : FVec F S192x192 .f32) : FVec F S1x192x192 .f32 := shapeCast S1x192x192 y shapeCasts_S192x192_S1x192x192
/-- A wide result viewed as a slab to store. -/
def upK (y : FVec F S192x1024 .f32) : FVec F S1x192x1024 .f32 := shapeCast S1x192x1024 y shapeCasts_S192x1024_S1x192x1024

theorem up_apply (y : FVec F S192x192 .f32) (u : Fin 1) (i j : Fin 192) : up y (ix3 u i j) = y (ix2 i j) := by
  unfold up; rw [shapeCast_ab_1ab_apply]
theorem upK_apply (y : FVec F S192x1024 .f32) (u : Fin 1) (i : Fin 192) (d : Fin 1024) : upK y (ix3 u i d) = y (ix2 i d) := by
  unfold upK; rw [shapeCast_ab_1ab_apply]

theorem sq_ld0 (x : Vec F S2x192x1024 .f32) : sq (View.ld x r0_0) = slab 0 x := by
  funext z
  obtain ⟨p, q, rfl⟩ : ∃ (p : Fin 192) (q : Fin 1024), z = ix2 p q := ⟨z 0, z 1, eq_ix2 z⟩
  unfold sq slab
  rw [shapeCast_1ab_ab_apply]
  show x (r0_0.idx (ix3 (0 : Fin 1) p q)) = x (ix3 (0 : Fin 2) p q)
  exact congrArg x (funext fun a => Fin.ext (by
    match a with
    | ⟨0, _⟩ => rfl
    | ⟨1, _⟩ => show 0 + 1 * p.val = p.val; omega
    | ⟨2, _⟩ => show 0 + 1 * q.val = q.val; omega))

theorem sq_ld1 (x : Vec F S2x192x1024 .f32) : sq (View.ld x r0_3) = slab 1 x := by
  funext z
  obtain ⟨p, q, rfl⟩ : ∃ (p : Fin 192) (q : Fin 1024), z = ix2 p q := ⟨z 0, z 1, eq_ix2 z⟩
  unfold sq slab
  rw [shapeCast_1ab_ab_apply]
  show x (r0_3.idx (ix3 (0 : Fin 1) p q)) = x (ix3 (1 : Fin 2) p q)
  exact congrArg x (funext fun a => Fin.ext (by
    match a with
    | ⟨0, _⟩ => rfl
    | ⟨1, _⟩ => show 0 + 1 * p.val = p.val; omega
    | ⟨2, _⟩ => show 0 + 1 * q.val = q.val; omega))

theorem sqm_ld0 (x : Vec F S2x1x192 .f32) : sqm (View.ld x r0_1) = mrow 0 x := by
  funext z
  obtain ⟨k, rfl⟩ : ∃ k : Fin 192, z = ix1 k := ⟨z 0, eq_ix1 z⟩
  unfold sqm mrow
  refine (shapeCast_apply (View.ld x r0_1) shapeCasts_S1x1x192_S192 (ix1 k) (ix3 (0 : Fin 1) (0 : Fin 1) k) (by
    rw [Shape.rowMajor_val_three, Shape.rowMajor_val_one]
    show (0 * 1 + 0) * 192 + k.val = k.val
    omega)).trans ?_
  show x (r0_1.idx (ix3 (0 : Fin 1) (0 : Fin 1) k)) = x (ix3 (0 : Fin 2) (0 : Fin 1) k)
  exact congrArg x (funext fun a => Fin.ext (by
    match a with
    | ⟨0, _⟩ => rfl
    | ⟨1, _⟩ => rfl
    | ⟨2, _⟩ => show 0 + 1 * k.val = k.val; omega))

theorem sqm_ld1 (x : Vec F S2x1x192 .f32) : sqm (View.ld x r0_4) = mrow 1 x := by
  funext z
  obtain ⟨k, rfl⟩ : ∃ k : Fin 192, z = ix1 k := ⟨z 0, eq_ix1 z⟩
  unfold sqm mrow
  refine (shapeCast_apply (View.ld x r0_4) shapeCasts_S1x1x192_S192 (ix1 k) (ix3 (0 : Fin 1) (0 : Fin 1) k) (by
    rw [Shape.rowMajor_val_three, Shape.rowMajor_val_one]
    show (0 * 1 + 0) * 192 + k.val = k.val
    omega)).trans ?_
  show x (r0_4.idx (ix3 (0 : Fin 1) (0 : Fin 1) k)) = x (ix3 (1 : Fin 2) (0 : Fin 1) k)
  exact congrArg x (funext fun a => Fin.ext (by
    match a with
    | ⟨0, _⟩ => rfl
    | ⟨1, _⟩ => rfl
    | ⟨2, _⟩ => show 0 + 1 * k.val = k.val; omega))

/-! ## Two stores that tile a block of two

The body's two stores into an output block are through the rectangles that hold example 1 (stored last) and
example 0.  An index of example 1 is under the last store; an index of example 0 is outside it and under the
other. -/

theorem sqEx1_emb (i j : Fin 192) : (ix3 (1 : Fin 2) i j : S2x192x192.Idx) = r0_5.emb (ix3 (0 : Fin 1) i j) := funext fun a => Fin.ext (by
  match a with
  | ⟨0, _⟩ => rfl
  | ⟨1, _⟩ => show i.val = 0 + 1 * i.val; omega
  | ⟨2, _⟩ => show j.val = 0 + 1 * j.val; omega)
theorem sqEx0_emb (i j : Fin 192) : (ix3 (0 : Fin 2) i j : S2x192x192.Idx) = r0_2.emb (ix3 (0 : Fin 1) i j) := funext fun a => Fin.ext (by
  match a with
  | ⟨0, _⟩ => rfl
  | ⟨1, _⟩ => show i.val = 0 + 1 * i.val; omega
  | ⟨2, _⟩ => show j.val = 0 + 1 * j.val; omega)
theorem sqEx0_not_mem (i j : Fin 192) : (ix3 (0 : Fin 2) i j : S2x192x192.Idx) ∉ r0_5.set := fun hm => by
  have h0 : 1 ≤ 0 := ((Rect.mem_set_unit.mp hm) 0).1
  omega

theorem wdEx1_emb (i : Fin 192) (d : Fin 1024) : (ix3 (1 : Fin 2) i d : S2x192x1024.Idx) = r0_3.emb (ix3 (0 : Fin 1) i d) := funext fun a => Fin.ext (by
  match a with
  | ⟨0, _⟩ => rfl
  | ⟨1, _⟩ => show i.val = 0 + 1 * i.val; omega
  | ⟨2, _⟩ => show d.val = 0 + 1 * d.val; omega)
theorem wdEx0_emb (i : Fin 192) (d : Fin 1024) : (ix3 (0 : Fin 2) i d : S2x192x1024.Idx) = r0_0.emb (ix3 (0 : Fin 1) i d) := funext fun a => Fin.ext (by
  match a with
  | ⟨0, _⟩ => rfl
  | ⟨1, _⟩ => show i.val = 0 + 1 * i.val; omega
  | ⟨2, _⟩ => show d.val = 0 + 1 * d.val; omega)
theorem wdEx0_not_mem (i : Fin 192) (d : Fin 1024) : (ix3 (0 : Fin 2) i d : S2x192x1024.Idx) ∉ r0_3.set := fun hm => by
  have h0 : 1 ≤ 0 := ((Rect.mem_set_unit.mp hm) 0).1
  omega

theorem canon_sq1 (P1 P0 : FVec F S1x192x192 .f32) (i j : Fin 192) :
    View.canon ([⟨r0_5, P1⟩, ⟨r0_2, P0⟩] : List (View.Piece (Elt F) S2x192x192 .f32)) (ix3 (1 : Fin 2) i j) = P1 (ix3 (0 : Fin 1) i j) := by
  rw [sqEx1_emb]
  exact View.canon_cons_emb (Val := Elt F) (e := .f32) r0_5 P1 _ (ix3 (0 : Fin 1) i j)

theorem canon_sq0 (P1 P0 : FVec F S1x192x192 .f32) (i j : Fin 192) :
    View.canon ([⟨r0_5, P1⟩, ⟨r0_2, P0⟩] : List (View.Piece (Elt F) S2x192x192 .f32)) (ix3 (0 : Fin 2) i j) = P0 (ix3 (0 : Fin 1) i j) := by
  refine (View.canon_cons_of_not_mem (Val := Elt F) (e := .f32) (⟨r0_5, P1⟩ : View.Piece (Elt F) S2x192x192 .f32) [⟨r0_2, P0⟩] (sqEx0_not_mem i j)).trans ?_
  rw [sqEx0_emb]
  exact View.canon_cons_emb (Val := Elt F) (e := .f32) r0_2 P0 [] (ix3 (0 : Fin 1) i j)

theorem canon_wd1 (P1 P0 : FVec F S1x192x1024 .f32) (i : Fin 192) (d : Fin 1024) :
    View.canon ([⟨r0_3, P1⟩, ⟨r0_0, P0⟩] : List (View.Piece (Elt F) S2x192x1024 .f32)) (ix3 (1 : Fin 2) i d) = P1 (ix3 (0 : Fin 1) i d) := by
  rw [wdEx1_emb]
  exact View.canon_cons_emb (Val := Elt F) (e := .f32) r0_3 P1 _ (ix3 (0 : Fin 1) i d)

theorem canon_wd0 (P1 P0 : FVec F S1x192x1024 .f32) (i : Fin 192) (d : Fin 1024) :
    View.canon ([⟨r0_3, P1⟩, ⟨r0_0, P0⟩] : List (View.Piece (Elt F) S2x192x1024 .f32)) (ix3 (0 : Fin 2) i d) = P0 (ix3 (0 : Fin 1) i d) := by
  refine (View.canon_cons_of_not_mem (Val := Elt F) (e := .f32) (⟨r0_3, P1⟩ : View.Piece (Elt F) S2x192x1024 .f32) [⟨r0_0, P0⟩] (wdEx0_not_mem i d)).trans ?_
  rw [wdEx0_emb]
  exact View.canon_cons_emb (Val := Elt F) (e := .f32) r0_0 P0 [] (ix3 (0 : Fin 1) i d)

end Generic

end Cert.KernelIdeal.Ex

end
-- ==== Proof.ExampleRead.lean ====
/-
  One example's results in the kernel body, read at an index at the ideal instance: each attention map is the
  row mathematics applied to the example's scores (or to their columns, for the transposed direction), each
  attended output a mask-weighted sum of rows.
-/
import proofs.«427880_j88742614270726_3_alg».proof.Proof.KernelBlocks

noncomputable section

namespace Cert.KernelIdeal.Ex

open Cert.KernelIdeal Cert.KernelIdeal.Gen Idealize.ShloMosaic Idealize.ShloMosaic.ValueIdx Cert.Attn

/-- A matrix as a plain function of its two coordinates. -/
abbrev mat {a b : Nat} (x : (⟨2, ![a, b]⟩ : Shape).Idx → EReal) : Fin a → Fin b → EReal := fun i k => x (ix2 i k)
/-- A vector as a plain function of its coordinate. -/
abbrev vec {a : Nat} (x : (⟨1, ![a]⟩ : Shape).Idx → EReal) : Fin a → EReal := fun k => x (ix1 k)

theorem attnPH_apply (p h : FVec Ideal S192x1024 .f32) (hm : FVec Ideal S192 .f32) (i j : Fin 192) :
    attnPH p h hm (ix2 i j) = attnOver botLit epsLit (mat p) (mat h) (vec hm) i j := by
  unfold attnPH attnOver dotRows
  rw [msoft_apply]
  simp only [scores_apply]

theorem attnHP_apply (p h : FVec Ideal S192x1024 .f32) (pm : FVec Ideal S192 .f32) (j i : Fin 192) :
    attnHP p h pm (ix2 j i) = attnBack botLit epsLit (mat p) (mat h) (vec pm) j i := by
  unfold attnHP attnBack dotRows
  rw [msoft_apply]
  simp only [tr_apply, scores_apply]

theorem totP_apply (p h gp gh : FVec Ideal S192x1024 .f32) (hm : FVec Ideal S192 .f32) (i j : Fin 192) :
    totP p h gp gh hm (ix2 i j)
      = attnOver botLit epsLit (mat p) (mat h) (vec hm) i j + attnOver botLit epsLit (mat gp) (mat gh) (vec hm) i j := by
  unfold totP
  rw [addf_apply, attnPH_apply, attnPH_apply]

theorem totH_apply (p h gp gh : FVec Ideal S192x1024 .f32) (pm : FVec Ideal S192 .f32) (j i : Fin 192) :
    totH p h gp gh pm (ix2 j i)
      = attnBack botLit epsLit (mat p) (mat h) (vec pm) j i + attnBack botLit epsLit (mat gp) (mat gh) (vec pm) j i := by
  unfold totH
  rw [addf_apply, attnHP_apply, attnHP_apply]

theorem attPrem_apply (p h gp gh : FVec Ideal S192x1024 .f32) (pm hm : FVec Ideal S192 .f32) (i : Fin 192) (d : Fin 1024) :
    attPrem p h gp gh pm hm (ix2 i d)
      = weighted (mat h) (fun i k => attnOver botLit epsLit (mat p) (mat h) (vec hm) i k + attnOver botLit epsLit (mat gp) (mat gh) (vec hm) i k) (vec pm) i d := by
  unfold attPrem weighted
  rw [wsum_apply]
  simp only [totP_apply]

theorem attHyp_apply (p h gp gh : FVec Ideal S192x1024 .f32) (pm hm : FVec Ideal S192 .f32) (j : Fin 192) (d : Fin 1024) :
    attHyp p h gp gh pm hm (ix2 j d)
      = weighted (mat p) (fun j k => attnBack botLit epsLit (mat p) (mat h) (vec pm) j k + attnBack botLit epsLit (mat gp) (mat gh) (vec pm) j k) (vec hm) j d := by
  unfold attHyp weighted
  rw [wsum_apply]
  simp only [totH_apply]

theorem attPremG_apply (gp gh : FVec Ideal S192x1024 .f32) (pm hm : FVec Ideal S192 .f32) (i : Fin 192) (d : Fin 1024) :
    attPremG gp gh pm hm (ix2 i d) = weighted (mat gh) (fun i k => attnOver botLit epsLit (mat gp) (mat gh) (vec hm) i k) (vec pm) i d := by
  unfold attPremG weighted
  rw [wsum_apply]
  simp only [attnPH_apply]

theorem attHypG_apply (gp gh : FVec Ideal S192x1024 .f32) (pm hm : FVec Ideal S192 .f32) (j : Fin 192) (d : Fin 1024) :
    attHypG gp gh pm hm (ix2 j d) = weighted (mat gp) (fun j k => attnBack botLit epsLit (mat gp) (mat gh) (vec pm) j k) (vec hm) j d := by
  unfold attHypG weighted
  rw [wsum_apply]
  simp only [attnHP_apply]

end Cert.KernelIdeal.Ex

end
-- ==== Proof.RefStages.lean ====
/-
  The reference read in stages.  Its program is a straight line of batched array operations; grouped, they are
  four masked softmaxes of batched score matrices (two of them of the transposed scores), two sums of attention
  maps, and four mask-weighted sums.  Each group is named here as a function of its operands, the reference's
  stage functions are these functions of the argument arrays by unfolding, and each is read at an index at the
  ideal instance: a batched row is the row mathematics of AttnMath, a batched product a finite sum of products.
  The host's row maximum is taken once more against minus infinity, which changes nothing; its sums start from a
  zero literal.
-/
import proofs.«427880_j88742614270726_3_alg».proof.Proof.Gen.ReferenceIdeal.Read
import proofs.«427880_j88742614270726_3_alg».proof.Proof.AttnMath
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.Read Idealize.ShloMosaic Idealize.ShloMosaic.ValueIdx Cert.Attn

abbrev botLit : EReal := Ideal.ofBits .f32 0xFF800000#32
abbrev epsLit : EReal := Ideal.ofBits .f32 0x29E12E13#32

section Generic

variable {F : FTy → Type} [FloatOps F]

/-- Batched scores `x · yᵀ`, contracted over the features. -/
def scoresR (x y : FVec F S32x192x1024 .f32) : FVec F S32x192x192 .f32 :=
  Host.dotGeneral dot_S32x192x1024_S32x192x1024_S32x192x192_2_2_1_1_0_0 none x y

/-- A batched mask as a stack of single rows. -/
def maskRow3 (mk : FVec F S32x192 .f32) : FVec F S32x1x192 .f32 :=
  broadcastInDim S32x1x192 ![0, 2] bcast_S32x192_S32x1x192_0_2 mk

/-- A stack of single rows laid along every row. -/
def rowsOf (m3 : FVec F S32x1x192 .f32) : FVec F S32x192x192 .f32 :=
  broadcastInDim S32x192x192 ![0, 1, 2] bcast_S32x1x192_S32x192x192_0_1_2 m3

/-- A stack of columns laid along every column. -/
def colsOf (c : FVec F S32x192x1 .f32) : FVec F S32x192x192 .f32 :=
  broadcastInDim S32x192x192 ![0, 1, 2] bcast_S32x192x1_S32x192x192_0_1_2 c

/-- A batched vector as a stack of columns. -/
def asCol (v : FVec F S32x192 .f32) : FVec F S32x192x1 .f32 :=
  broadcastInDim S32x192x1 ![0, 1] bcast_S32x192_S32x192x1_0_1 v

/-- Row maxima, taken once more against minus infinity, as columns. -/
def maxColR (y : FVec F S32x192x192 .f32) : FVec F S32x192x1 .f32 :=
  asCol (maximumf (broadcastInDim S32x192 ![] bcast_S_S32x192 (constant S_ .f32 0xFF800000#32))
    (Host.reduce FloatOps.maximumf y (constant S_ .f32 0xFF800000#32) reducesTo_S32x192x192_S32x192_d2 h_S_))

/-- Row sums as columns. -/
def sumColR (y : FVec F S32x192x192 .f32) : FVec F S32x192x1 .f32 :=
  asCol (Host.reduceAdd y (constant S_ .f32 0x00000000#32) reducesTo_S32x192x192_S32x192_d2 h_S_)

def expShiftR (y : FVec F S32x192x192 .f32) : FVec F S32x192x192 .f32 :=
  Host.exp (subf y (colsOf (maxColR y)))

def probsR (s : FVec F S32x192x192 .f32) (m3 : FVec F S32x1x192 .f32) : FVec F S32x192x192 .f32 :=
  mulf (Host.divf (expShiftR (mulf s (rowsOf m3))) (colsOf (sumColR (expShiftR (mulf s (rowsOf m3)))))) (rowsOf m3)

def renormR (q : FVec F S32x192x192 .f32) : FVec F S32x192x192 .f32 :=
  Host.divf q (colsOf (addf (sumColR q) (broadcastInDim S32x192x1 ![] bcast_S_S32x192x1 (constant S_ .f32 0x29E12E13#32))))

/-- The batched masked softmax along rows. -/
def msoftR (s : FVec F S32x192x192 .f32) (m3 : FVec F S32x1x192 .f32) : FVec F S32x192x192 .f32 := renormR (probsR s m3)

/-- Each matrix of a stack transposed. -/
def trR (s : FVec F S32x192x192 .f32) : FVec F S32x192x192 .f32 :=
  transpose S32x192x192 [0, 2, 1] s transposes_S32x192x192_S32x192x192_0_2_1

/-- Batched weighted sums of the rows of `T`, each result row scaled by its mask entry. -/
def wsumR (w : FVec F S32x192x192 .f32) (T : FVec F S32x192x1024 .f32) (mk : FVec F S32x192 .f32) : FVec F S32x192x1024 .f32 :=
  mulf (Host.dotGeneral dot_S32x192x192_S32x192x1024_S32x192x1024_2_1_1_2_0_0 none w T)
    (broadcastInDim S32x192x1024 ![0, 1, 2] bcast_S32x192x1_S32x192x1024_0_1_2 (asCol mk))

/-! The reference's stages are these functions of the argument arrays. -/

theorem v23_eq (x0 x2 : FVec F S32x192x1024 .f32) (x3 : FVec F S32x192 .f32) :
    val_main_v23 (F := F) x0 x2 x3 = msoftR (scoresR x0 x2) (maskRow3 x3) := rfl
theorem v46_eq (x0 : FVec F S32x192x1024 .f32) (x1 : FVec F S32x192 .f32) (x2 : FVec F S32x192x1024 .f32) :
    val_main_v46 (F := F) x0 x1 x2 = msoftR (trR (scoresR x0 x2)) (maskRow3 x1) := rfl
theorem v68_eq (x3 : FVec F S32x192 .f32) (x4 x5 : FVec F S32x192x1024 .f32) :
    val_main_v68 (F := F) x3 x4 x5 = msoftR (scoresR x4 x5) (maskRow3 x3) := rfl
theorem v91_eq (x1 : FVec F S32x192 .f32) (x4 x5 : FVec F S32x192x1024 .f32) :
    val_main_v91 (F := F) x1 x4 x5 = msoftR (trR (scoresR x4 x5)) (maskRow3 x1) := rfl
theorem v92_eq (x0 x2 : FVec F S32x192x1024 .f32) (x3 : FVec F S32x192 .f32) (x4 x5 : FVec F S32x192x1024 .f32) :
    val_main_v92 (F := F) x0 x2 x3 x4 x5 = addf (val_main_v23 (F := F) x0 x2 x3) (val_main_v68 (F := F) x3 x4 x5) := rfl
theorem v93_eq (x0 : FVec F S32x192x1024 .f32) (x1 : FVec F S32x192 .f32) (x2 x4 x5 : FVec F S32x192x1024 .f32) :
    val_main_v93 (F := F) x0 x1 x2 x4 x5 = addf (val_main_v46 (F := F) x0 x1 x2) (val_main_v91 (F := F) x1 x4 x5) := rfl
theorem v97_eq (x0 : FVec F S32x192x1024 .f32) (x1 : FVec F S32x192 .f32) (x2 : FVec F S32x192x1024 .f32) (x3 : FVec F S32x192 .f32) (x4 x5 : FVec F S32x192x1024 .f32) :
    val_main_v97 (F := F) x0 x1 x2 x3 x4 x5 = wsumR (val_main_v92 (F := F) x0 x2 x3 x4 x5) x2 x1 := rfl
theorem v101_eq (x0 : FVec F S32x192x1024 .f32) (x1 : FVec F S32x192 .f32) (x2 : FVec F S32x192x1024 .f32) (x3 : FVec F S32x192 .f32) (x4 x5 : FVec F S32x192x1024 .f32) :
    val_main_v101 (F := F) x0 x1 x2 x3 x4 x5 = wsumR (val_main_v93 (F := F) x0 x1 x2 x4 x5) x0 x3 := rfl
theorem v105_eq (x1 x3 : FVec F S32x192 .f32) (x4 x5 : FVec F S32x192x1024 .f32) :
    val_main_v105 (F := F) x1 x3 x4 x5 = wsumR (val_main_v68 (F := F) x3 x4 x5) x5 x1 := rfl
theorem v109_eq (x1 x3 : FVec F S32x192 .f32) (x4 x5 : FVec F S32x192x1024 .f32) :
    val_main_v109 (F := F) x1 x3 x4 x5 = wsumR (val_main_v91 (F := F) x1 x4 x5) x4 x3 := rfl

end Generic

/-! ## Read at an index, at the ideal instance -/

theorem maskRow3_apply (mk : FVec Ideal S32x192 .f32) (b : Fin 32) (u : Fin 1) (k : Fin 192) :
    maskRow3 mk (ix3 b u k) = mk (ix2 b k) := by
  unfold maskRow3
  exact broadcastInDim_apply _ bcast_S32x192_S32x1x192_0_2 mk (ix3 b u k) (ix2 b k) (fun a => match a with
    | ⟨0, _⟩ => by show b.val = if (32 : Nat) = 1 then 0 else b.val; rw [if_neg (by decide)]
    | ⟨1, _⟩ => by show k.val = if (192 : Nat) = 1 then 0 else k.val; rw [if_neg (by decide)])

theorem rowsOf_apply (m3 : FVec Ideal S32x1x192 .f32) (b : Fin 32) (i j : Fin 192) :
    rowsOf m3 (ix3 b i j) = m3 (ix3 b (0 : Fin 1) j) := by
  unfold rowsOf
  exact broadcastInDim_apply _ bcast_S32x1x192_S32x192x192_0_1_2 m3 (ix3 b i j) (ix3 b (0 : Fin 1) j) (fun a => match a with
    | ⟨0, _⟩ => by show b.val = if (32 : Nat) = 1 then 0 else b.val; rw [if_neg (by decide)]
    | ⟨1, _⟩ => by show 0 = if (1 : Nat) = 1 then 0 else i.val; rw [if_pos rfl]
    | ⟨2, _⟩ => by show j.val = if (192 : Nat) = 1 then 0 else j.val; rw [if_neg (by decide)])

theorem colsOf_apply (c : FVec Ideal S32x192x1 .f32) (b : Fin 32) (i j : Fin 192) :
    colsOf c (ix3 b i j) = c (ix3 b i (0 : Fin 1)) := by
  unfold colsOf
  exact broadcastInDim_apply _ bcast_S32x192x1_S32x192x192_0_1_2 c (ix3 b i j) (ix3 b i (0 : Fin 1)) (fun a => match a with
    | ⟨0, _⟩ => by show b.val = if (32 : Nat) = 1 then 0 else b.val; rw [if_neg (by decide)]
    | ⟨1, _⟩ => by show i.val = if (192 : Nat) = 1 then 0 else i.val; rw [if_neg (by decide)]
    | ⟨2, _⟩ => by show 0 = if (1 : Nat) = 1 then 0 else j.val; rw [if_pos rfl])

theorem asCol_apply (v : FVec Ideal S32x192 .f32) (b : Fin 32) (i : Fin 192) (u : Fin 1) :
    asCol v (ix3 b i u) = v (ix2 b i) := by
  unfold asCol
  exact broadcastInDim_apply _ bcast_S32x192_S32x192x1_0_1 v (ix3 b i u) (ix2 b i) (fun a => match a with
    | ⟨0, _⟩ => by show b.val = if (32 : Nat) = 1 then 0 else b.val; rw [if_neg (by decide)]
    | ⟨1, _⟩ => by show i.val = if (192 : Nat) = 1 then 0 else i.val; rw [if_neg (by decide)])

theorem lift_rowR (b : Fin 32) (i k : Fin 192) (h : S32x192x192.Reduces [2] S32x192) : h.lift (ix2 b i) k = ix3 b i k :=
  funext fun a => Fin.ext (by match a with | ⟨0, _⟩ => rfl | ⟨1, _⟩ => rfl | ⟨2, _⟩ => rfl)

theorem maxColR_apply (y : FVec Ideal S32x192x192 .f32) (b : Fin 32) (i : Fin 192) (u : Fin 1) :
    maxColR y (ix3 b i u) = rowMax botLit (fun k => y (ix3 b i k)) := by
  unfold maxColR
  rw [asCol_apply, maximumf_apply]
  have hred : S32x192x192.Reduces [2] S32x192 := by decide
  rw [Host.reduce_eq_fold_single FloatOps.maximumf y _ reducesTo_S32x192x192_S32x192_d2 hred h_S_]
  show max botLit ((Finset.univ : Finset (Fin 192)).fold max botLit (y ∘ hred.lift (ix2 b i))) = _
  have e : (y ∘ hred.lift (ix2 b i)) = fun k : Fin 192 => y (ix3 b i k) := funext fun k => congrArg y (lift_rowR b i k hred)
  rw [e]
  exact max_bot_rowMax botLit _

theorem sumColR_apply (y : FVec Ideal S32x192x192 .f32) (b : Fin 32) (i : Fin 192) (u : Fin 1) :
    sumColR y (ix3 b i u) = ∑ k : Fin 192, y (ix3 b i k) := by
  unfold sumColR
  rw [asCol_apply]
  have hred : S32x192x192.Reduces [2] S32x192 := by decide
  simp only [Host.reduceAdd, Ideal.hostReduceAdd_def]
  rw [Ideal.hostReduceAdd_single reducesTo_S32x192x192_S32x192_d2 hred]
  show Ideal.ofBits .f32 0x00000000#32 + _ = _
  rw [Ideal.ofBits_zero_f32, zero_add]
  exact Finset.sum_congr rfl fun k _ => congrArg y (lift_rowR b i k hred)

theorem expShiftR_apply (y : FVec Ideal S32x192x192 .f32) (b : Fin 32) (i j : Fin 192) :
    expShiftR y (ix3 b i j) = Ideal.exp (y (ix3 b i j) - rowMax botLit (fun k => y (ix3 b i k))) := by
  unfold expShiftR
  show Ideal.exp (y (ix3 b i j) - colsOf (maxColR y) (ix3 b i j)) = _
  rw [colsOf_apply, maxColR_apply]

theorem probsR_apply (s : FVec Ideal S32x192x192 .f32) (m3 : FVec Ideal S32x1x192 .f32) (b : Fin 32) (i j : Fin 192) :
    probsR s m3 (ix3 b i j) = probRow botLit (fun k => s (ix3 b i k)) (fun k => m3 (ix3 b (0 : Fin 1) k)) j := by
  unfold probsR probRow expRow
  show Ideal.div (expShiftR (mulf s (rowsOf m3)) (ix3 b i j)) (colsOf (sumColR (expShiftR (mulf s (rowsOf m3)))) (ix3 b i j)) * rowsOf m3 (ix3 b i j) = _
  rw [colsOf_apply, sumColR_apply, rowsOf_apply]
  simp only [expShiftR_apply, mulf_apply, rowsOf_apply]

theorem renormR_apply (q : FVec Ideal S32x192x192 .f32) (b : Fin 32) (i j : Fin 192) :
    renormR q (ix3 b i j) = Ideal.div (q (ix3 b i j)) ((∑ k : Fin 192, q (ix3 b i k)) + epsLit) := by
  unfold renormR
  show Ideal.div (q (ix3 b i j)) (colsOf (addf (sumColR q) (broadcastInDim S32x192x1 ![] bcast_S_S32x192x1 (constant S_ .f32 0x29E12E13#32))) (ix3 b i j)) = _
  rw [colsOf_apply, addf_apply, sumColR_apply]
  rfl

theorem msoftR_apply (s : FVec Ideal S32x192x192 .f32) (m3 : FVec Ideal S32x1x192 .f32) (b : Fin 32) (i j : Fin 192) :
    msoftR s m3 (ix3 b i j) = maskedSoftmax botLit epsLit (fun k => s (ix3 b i k)) (fun k => m3 (ix3 b (0 : Fin 1) k)) j := by
  unfold msoftR maskedSoftmax
  rw [renormR_apply]
  simp only [probsR_apply]

theorem trR_apply (s : FVec Ideal S32x192x192 .f32) (b : Fin 32) (i j : Fin 192) : trR s (ix3 b i j) = s (ix3 b j i) := by
  unfold trR
  rw [transpose_ix3_021_apply]

theorem scoresR_apply (x y : FVec Ideal S32x192x1024 .f32) (b : Fin 32) (i j : Fin 192) :
    scoresR x y (ix3 b i j) = ∑ k : Fin 1024, x (ix3 b i k) * y (ix3 b j k) := by
  show val_main_v0 (F := Ideal) x y (ix3 b i j) = _
  rw [val_main_v0_apply]
  refine Finset.sum_congr rfl fun k _ => ?_
  have el : lidx_main_v0 (ix3 b i j) k = ix3 b i k := funext fun a => Fin.ext (by match a with | ⟨0, _⟩ => rfl | ⟨1, _⟩ => rfl | ⟨2, _⟩ => rfl)
  have er : ridx_main_v0 (ix3 b i j) k = ix3 b j k := funext fun a => Fin.ext (by match a with | ⟨0, _⟩ => rfl | ⟨1, _⟩ => rfl | ⟨2, _⟩ => rfl)
  rw [el, er]

end Cert.ReferenceIdeal.Stages

end
-- ==== Proof.RefRead.lean ====
/-
  The reference's ten results read at an index at the ideal instance, for batch entry `b`: each attention map is
  the row mathematics applied to entry `b`'s scores, each attended output a mask-weighted sum of entry `b`'s rows.
-/
import proofs.«427880_j88742614270726_3_alg».proof.Proof.RefStages

noncomputable section

namespace Cert.ReferenceIdeal.Stages

open Cert.ReferenceIdeal Cert.ReferenceIdeal.Gen Cert.ReferenceIdeal.Read Idealize.ShloMosaic Idealize.ShloMosaic.ValueIdx Cert.Attn

/-- Batch entry `b` of a stack of matrices, as a plain function of its two coordinates. -/
abbrev bmat {a d : Nat} (X : (⟨3, ![32, a, d]⟩ : Shape).Idx → EReal) (b : Fin 32) : Fin a → Fin d → EReal := fun i k => X (ix3 b i k)
/-- Batch entry `b` of a stack of vectors. -/
abbrev bvec {a : Nat} (M : (⟨2, ![32, a]⟩ : Shape).Idx → EReal) (b : Fin 32) : Fin a → EReal := fun k => M (ix2 b k)

theorem wsumR_apply (w : FVec Ideal S32x192x192 .f32) (T : FVec Ideal S32x192x1024 .f32) (mk : FVec Ideal S32x192 .f32)
    (b : Fin 32) (i : Fin 192) (d : Fin 1024) :
    wsumR w T mk (ix3 b i d) = weighted (bmat T b) (bmat w b) (bvec mk b) i d := by
  unfold wsumR weighted
  rw [mulf_apply]
  congr 1
  · simp only [Host.dotGeneral]
    rw [Ideal.dotGeneral_apply, ← Equiv.sum_comp (contrEquiv1 dot_S32x192x192_S32x192x1024_S32x192x1024_2_1_1_2_0_0 192 rfl rfl).symm]
    refine Finset.sum_congr rfl fun k _ => ?_
    have hk := contrEquiv1_symm_val dot_S32x192x192_S32x192x1024_S32x192x1024_2_1_1_2_0_0 192 rfl rfl k
    have el : dot_S32x192x192_S32x192x1024_S32x192x1024_2_1_1_2_0_0.lhsIdx (ix3 b i d) ((contrEquiv1 dot_S32x192x192_S32x192x1024_S32x192x1024_2_1_1_2_0_0 192 rfl rfl).symm k) = ix3 b i k := funext fun a => Fin.ext (by
      match a with
      | ⟨0, _⟩ => exact lhs_main_v94_0 _ _
      | ⟨1, _⟩ => exact lhs_main_v94_1 _ _
      | ⟨2, _⟩ => exact (lhs_main_v94_2 _ _).trans hk)
    have er : dot_S32x192x192_S32x192x1024_S32x192x1024_2_1_1_2_0_0.rhsIdx (ix3 b i d) ((contrEquiv1 dot_S32x192x192_S32x192x1024_S32x192x1024_2_1_1_2_0_0 192 rfl rfl).symm k) = ix3 b k d := funext fun a => Fin.ext (by
      match a with
      | ⟨0, _⟩ => exact rhs_main_v94_0 _ _
      | ⟨1, _⟩ => exact (rhs_main_v94_1 _ _).trans hk
      | ⟨2, _⟩ => exact rhs_main_v94_2 _ _)
    rw [el, er]
  · refine (broadcastInDim_apply _ bcast_S32x192x1_S32x192x1024_0_1_2 (asCol mk) (ix3 b i d) (ix3 b i (0 : Fin 1)) (fun a => match a with
      | ⟨0, _⟩ => by show b.val = if (32 : Nat) = 1 then 0 else b.val; rw [if_neg (by decide)]
      | ⟨1, _⟩ => by show i.val = if (192 : Nat) = 1 then 0 else i.val; rw [if_neg (by decide)]
      | ⟨2, _⟩ => by show 0 = if (1 : Nat) = 1 then 0 else d.val; rw [if_pos rfl])).trans ?_
    exact asCol_apply mk b i 0

theorem v23_apply (x0 x2 : FVec Ideal S32x192x1024 .f32) (x3 : FVec Ideal S32x192 .f32) (b : Fin 32) (i j : Fin 192) :
    val_main_v23 (F := Ideal) x0 x2 x3 (ix3 b i j) = attnOver botLit epsLit (bmat x0 b) (bmat x2 b) (bvec x3 b) i j := by
  rw [v23_eq, msoftR_apply]
  unfold attnOver dotRows
  simp only [scoresR_apply, maskRow3_apply]

theorem v46_apply (x0 : FVec Ideal S32x192x1024 .f32) (x1 : FVec Ideal S32x192 .f32) (x2 : FVec Ideal S32x192x1024 .f32) (b : Fin 32) (j i : Fin 192) :
    val_main_v46 (F := Ideal) x0 x1 x2 (ix3 b j i) = attnBack botLit epsLit (bmat x0 b) (bmat x2 b) (bvec x1 b) j i := by
  rw [v46_eq, msoftR_apply]
  unfold attnBack dotRows
  simp only [trR_apply, scoresR_apply, maskRow3_apply]

theorem v68_apply (x3 : FVec Ideal S32x192 .f32) (x4 x5 : FVec Ideal S32x192x1024 .f32) (b : Fin 32) (i j : Fin 192) :
    val_main_v68 (F := Ideal) x3 x4 x5 (ix3 b i j) = attnOver botLit epsLit (bmat x4 b) (bmat x5 b) (bvec x3 b) i j := by
  rw [v68_eq, msoftR_apply]
  unfold attnOver dotRows
  simp only [scoresR_apply, maskRow3_apply]

theorem v91_apply (x1 : FVec Ideal S32x192 .f32) (x4 x5 : FVec Ideal S32x192x1024 .f32) (b : Fin 32) (j i : Fin 192) :
    val_main_v91 (F := Ideal) x1 x4 x5 (ix3 b j i) = attnBack botLit epsLit (bmat x4 b) (bmat x5 b) (bvec x1 b) j i := by
  rw [v91_eq, msoftR_apply]
  unfold attnBack dotRows
  simp only [trR_apply, scoresR_apply, maskRow3_apply]

theorem v92_apply (x0 x2 : FVec Ideal S32x192x1024 .f32) (x3 : FVec Ideal S32x192 .f32) (x4 x5 : FVec Ideal S32x192x1024 .f32) (b : Fin 32) (i j : Fin 192) :
    val_main_v92 (F := Ideal) x0 x2 x3 x4 x5 (ix3 b i j)
      = attnOver botLit epsLit (bmat x0 b) (bmat x2 b) (bvec x3 b) i j + attnOver botLit epsLit (bmat x4 b) (bmat x5 b) (bvec x3 b) i j := by
  rw [v92_eq, addf_apply, v23_apply, v68_apply]

theorem v93_apply (x0 : FVec Ideal S32x192x1024 .f32) (x1 : FVec Ideal S32x192 .f32) (x2 x4 x5 : FVec Ideal S32x192x1024 .f32) (b : Fin 32) (j i : Fin 192) :
    val_main_v93 (F := Ideal) x0 x1 x2 x4 x5 (ix3 b j i)
      = attnBack botLit epsLit (bmat x0 b) (bmat x2 b) (bvec x1 b) j i + attnBack botLit epsLit (bmat x4 b) (bmat x5 b) (bvec x1 b) j i := by
  rw [v93_eq, addf_apply, v46_apply, v91_apply]

theorem v97_apply (x0 : FVec Ideal S32x192x1024 .f32) (x1 : FVec Ideal S32x192 .f32) (x2 : FVec Ideal S32x192x1024 .f32) (x3 : FVec Ideal S32x192 .f32) (x4 x5 : FVec Ideal S32x192x1024 .f32)
    (b : Fin 32) (i : Fin 192) (d : Fin 1024) :
    val_main_v97 (F := Ideal) x0 x1 x2 x3 x4 x5 (ix3 b i d)
      = weighted (bmat x2 b) (fun i k => attnOver botLit epsLit (bmat x0 b) (bmat x2 b) (bvec x3 b) i k + attnOver botLit epsLit (bmat x4 b) (bmat x5 b) (bvec x3 b) i k) (bvec x1 b) i d := by
  rw [v97_eq, wsumR_apply]
  unfold weighted
  simp only [v92_apply]

theorem v101_apply (x0 : FVec Ideal S32x192x1024 .f32) (x1 : FVec Ideal S32x192 .f32) (x2 : FVec Ideal S32x192x1024 .f32) (x3 : FVec Ideal S32x192 .f32) (x4 x5 : FVec Ideal S32x192x1024 .f32)
    (b : Fin 32) (j : Fin 192) (d : Fin 1024) :
    val_main_v101 (F := Ideal) x0 x1 x2 x3 x4 x5 (ix3 b j d)
      = weighted (bmat x0 b) (fun j k => attnBack botLit epsLit (bmat x0 b) (bmat x2 b) (bvec x1 b) j k + attnBack botLit epsLit (bmat x4 b) (bmat x5 b) (bvec x1 b) j k) (bvec x3 b) j d := by
  rw [v101_eq, wsumR_apply]
  unfold weighted
  simp only [v93_apply]

theorem v105_apply (x1 x3 : FVec Ideal S32x192 .f32) (x4 x5 : FVec Ideal S32x192x1024 .f32) (b : Fin 32) (i : Fin 192) (d : Fin 1024) :
    val_main_v105 (F := Ideal) x1 x3 x4 x5 (ix3 b i d)
      = weighted (bmat x5 b) (fun i k => attnOver botLit epsLit (bmat x4 b) (bmat x5 b) (bvec x3 b) i k) (bvec x1 b) i d := by
  rw [v105_eq, wsumR_apply]
  unfold weighted
  simp only [v68_apply]

theorem v109_apply (x1 x3 : FVec Ideal S32x192 .f32) (x4 x5 : FVec Ideal S32x192x1024 .f32) (b : Fin 32) (j : Fin 192) (d : Fin 1024) :
    val_main_v109 (F := Ideal) x1 x3 x4 x5 (ix3 b j d)
      = weighted (bmat x4 b) (fun j k => attnBack botLit epsLit (bmat x4 b) (bmat x5 b) (bvec x1 b) j k) (bvec x3 b) j d := by
  rw [v109_eq, wsumR_apply]
  unfold weighted
  simp only [v91_apply]

end Cert.ReferenceIdeal.Stages

end
-- ==== Proof.Bridge.lean ====
/-
  The bridge: for every batch entry `b`, each of the reference's ten results at `(b, i, j)` is the kernel body's
  corresponding result for ONE example — the example whose operands are entry `b` of the argument arrays — at
  `(i, j)`.  Both sides are the same row mathematics of the same rows: the four attention maps are masked
  softmaxes of the same score rows (or columns), the totals their sums, the attended outputs the same
  mask-weighted sums.  No algebraic law is needed beyond reading both programs at an index, so nothing here
  uses finiteness of the inputs.
-/
import proofs.«427880_j88742614270726_3_alg».proof.Proof.ExampleRead
import proofs.«427880_j88742614270726_3_alg».proof.Proof.RefRead

noncomputable section

namespace Cert.Bridge

open Idealize.ShloMosaic Idealize.ShloMosaic.ValueIdx Cert.Attn
open Cert.ReferenceIdeal.Read Cert.ReferenceIdeal.Stages Cert.KernelIdeal.Ex

abbrev Stack : Shape := ⟨3, ![32, 192, 1024]⟩
abbrev Masks : Shape := ⟨2, ![32, 192]⟩
abbrev Mat : Shape := ⟨2, ![192, 1024]⟩
abbrev Vc : Shape := ⟨1, ![192]⟩

/-- Entry `b` of a stack of matrices, as one example's matrix. -/
def exm (X : FVec Ideal Stack .f32) (b : Fin 32) : FVec Ideal Mat .f32 := fun z => X (ix3 b (z 0) (z 1))
/-- Entry `b` of a stack of masks, as one example's mask. -/
def exv (M : FVec Ideal Masks .f32) (b : Fin 32) : FVec Ideal Vc .f32 := fun z => M (ix2 b (z 0))

variable (X0 X2 X4 X5 : FVec Ideal Stack .f32) (X1 X3 : FVec Ideal Masks .f32) (b : Fin 32)

theorem premHyp (i j : Fin 192) :
    val_main_v23 (F := Ideal) X0 X2 X3 (ix3 b i j) = attnPH (exm X0 b) (exm X2 b) (exv X3 b) (ix2 i j) := by
  rw [v23_apply, attnPH_apply]; rfl

theorem hypPrem (j i : Fin 192) :
    val_main_v46 (F := Ideal) X0 X1 X2 (ix3 b j i) = attnHP (exm X0 b) (exm X2 b) (exv X1 b) (ix2 j i) := by
  rw [v46_apply, attnHP_apply]; rfl

theorem premHypG (i j : Fin 192) :
    val_main_v68 (F := Ideal) X3 X4 X5 (ix3 b i j) = attnPH (exm X4 b) (exm X5 b) (exv X3 b) (ix2 i j) := by
  rw [v68_apply, attnPH_apply]; rfl

theorem hypPremG (j i : Fin 192) :
    val_main_v91 (F := Ideal) X1 X4 X5 (ix3 b j i) = attnHP (exm X4 b) (exm X5 b) (exv X1 b) (ix2 j i) := by
  rw [v91_apply, attnHP_apply]; rfl

theorem totalP (i j : Fin 192) :
    val_main_v92 (F := Ideal) X0 X2 X3 X4 X5 (ix3 b i j) = totP (exm X0 b) (exm X2 b) (exm X4 b) (exm X5 b) (exv X3 b) (ix2 i j) := by
  rw [v92_apply, totP_apply]; rfl

theorem totalH (j i : Fin 192) :
    val_main_v93 (F := Ideal) X0 X1 X2 X4 X5 (ix3 b j i) = totH (exm X0 b) (exm X2 b) (exm X4 b) (exm X5 b) (exv X1 b) (ix2 j i) := by
  rw [v93_apply, totH_apply]; rfl

theorem attendedPrem (i : Fin 192) (d : Fin 1024) :
    val_main_v97 (F := Ideal) X0 X1 X2 X3 X4 X5 (ix3 b i d)
      = attPrem (exm X0 b) (exm X2 b) (exm X4 b) (exm X5 b) (exv X1 b) (exv X3 b) (ix2 i d) := by
  rw [v97_apply, attPrem_apply]; rfl

theorem attendedHyp (j : Fin 192) (d : Fin 1024) :
    val_main_v101 (F := Ideal) X0 X1 X2 X3 X4 X5 (ix3 b j d)
      = attHyp (exm X0 b) (exm X2 b) (exm X4 b) (exm X5 b) (exv X1 b) (exv X3 b) (ix2 j d) := by
  rw [v101_apply, attHyp_apply]; rfl

theorem attendedPremG (i : Fin 192) (d : Fin 1024) :
    val_main_v105 (F := Ideal) X1 X3 X4 X5 (ix3 b i d) = attPremG (exm X4 b) (exm X5 b) (exv X1 b) (exv X3 b) (ix2 i d) := by
  rw [v105_apply, attPremG_apply]; rfl

theorem attendedHypG (j : Fin 192) (d : Fin 1024) :
    val_main_v109 (F := Ideal) X1 X3 X4 X5 (ix3 b j d) = attHypG (exm X4 b) (exm X5 b) (exv X1 b) (exv X3 b) (ix2 j d) := by
  rw [v109_apply, attHypG_apply]; rfl

end Cert.Bridge

end
-- ==== Proof.Batch.lean ====
/-
  Which batch entry a grid point's examples are: the grid has sixteen points, each holding two consecutive
  entries of the batch of thirty-two.
-/
import proofs.«427880_j88742614270726_3_alg».proof.Proof.Gen.KernelIdeal.Frame

noncomputable section

namespace Cert.KernelIdeal.Pts

open Cert.KernelIdeal Cert.KernelIdeal.Gen Idealize.ShloMosaic

/-- The batch entry that example `a` of grid point `t` is. -/
def bat (t : Fin cfg0.N) (a : Fin 2) : Fin 32 :=
  ⟨t.val * 2 + a.val, by have ht : t.val < 16 := lt_of_lt_of_eq t.isLt N_0; have := a.isLt; omega⟩

end Cert.KernelIdeal.Pts

end
-- ==== Proof.In0.lean ====
/-
  A matrix input window at a grid point.  Its block index is the point's number on the batch axis and zero on
  the other two, so element `(a, i, k)` of the block at point `t` is element `(2 t + a, i, k)` of the array, and
  example `a`'s slab of the block is batch entry `2 t + a` of the argument array, which no host operation
  writes before the region.
-/
import proofs.«427880_j88742614270726_3_alg».proof.Proof.Gen.KernelIdeal.Value
import proofs.«427880_j88742614270726_3_alg».proof.Proof.Bridge
import proofs.«427880_j88742614270726_3_alg».proof.Proof.Batch
import Idealize.ShloMosaic.Lib.StableHlo.Run

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index0 : ∀ t : Fin cfg0.N, win0_0.index t = ![t.val, 0, 0] := (by decide +kernel : ∀ t : Fin grid0.N, _)

theorem emb0 (t : Fin cfg0.N) (a : Fin 2) (i : Fin 192) (k : Fin 1024) :
    ((cfg0.win 0).blk t).view.emb (ix3 a i k) = ix3 (bat t a) i k := by
  funext ax; apply Fin.ext
  have e := index0 t
  match ax with
  | ⟨0, _⟩ => show win0_0.index t (0 : Fin 3) * 2 + 1 * a.val = t.val * 2 + a.val; rw [e]; show t.val * 2 + 1 * a.val = _; omega
  | ⟨1, _⟩ => show win0_0.index t (1 : Fin 3) * 192 + 1 * i.val = i.val; rw [e]; show 0 * 192 + 1 * i.val = _; omega
  | ⟨2, _⟩ => show win0_0.index t (2 : Fin 3) * 1024 + 1 * k.val = k.val; rw [e]; show 0 * 1024 + 1 * k.val = _; omega

theorem slab0 (c : Dev nD) (t : Fin cfg0.N) (a : Fin 2) :
    slab a (iblk m c 0 t) = Cert.Bridge.exm (m ((c : Thread nD τ).loc main_arg0)) (bat t a) := by
  funext z
  obtain ⟨p, q, rfl⟩ : ∃ (p : Fin 192) (q : Fin 1024), z = ix2 p q := ⟨z 0, z 1, eq_ix2 z⟩
  show V m c main_arg0 (((cfg0.win 0).blk t).view.emb (ix3 a p q)) = m ((c : Thread nD τ).loc main_arg0) (ix3 (bat t a) p q)
  rw [emb0, V_main_arg0]

end Cert.KernelIdeal.Pts

end
-- ==== Proof.In1.lean ====
/-
  A mask input window at a grid point.  The array it stages is the mask argument given a middle unit axis by a
  host operation before the region; its block index is the point's number on the batch axis.  So example `a`'s
  mask row of the block at point `t` is batch entry `2 t + a` of the mask argument.
-/
import proofs.«427880_j88742614270726_3_alg».proof.Proof.Gen.KernelIdeal.Value
import proofs.«427880_j88742614270726_3_alg».proof.Proof.Bridge
import proofs.«427880_j88742614270726_3_alg».proof.Proof.Batch
import Idealize.ShloMosaic.Lib.StableHlo.Run

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index1 : ∀ t : Fin cfg0.N, win0_1.index t = ![t.val, 0, 0] := (by decide +kernel : ∀ t : Fin grid0.N, _)

theorem emb1 (t : Fin cfg0.N) (a : Fin 2) (u : Fin 1) (k : Fin 192) :
    ((cfg0.win 1).blk t).view.emb (ix3 a u k) = ix3 (bat t a) (0 : Fin 1) k := by
  funext ax; apply Fin.ext
  have e := index1 t
  have hu : u.val = 0 := by omega
  match ax with
  | ⟨0, _⟩ => show win0_1.index t (0 : Fin 3) * 2 + 1 * a.val = t.val * 2 + a.val; rw [e]; show t.val * 2 + 1 * a.val = _; omega
  | ⟨1, _⟩ => show win0_1.index t (1 : Fin 3) * 1 + 1 * u.val = 0; rw [e]; show 0 * 1 + 1 * u.val = _; omega
  | ⟨2, _⟩ => show win0_1.index t (2 : Fin 3) * 192 + 1 * k.val = k.val; rw [e]; show 0 * 192 + 1 * k.val = _; omega

/-- The staged array is the mask argument with a unit axis inserted, as the host operation before the region left it. -/
theorem V_main_v0 (c : Dev nD) :
    (V m c main_v0 : S32x1x192.Idx → EReal) = broadcastInDim S32x1x192 ![0, 2] bcast_S32x192_S32x1x192_0_2 (m ((c : Thread nD τ).loc main_arg1)) := by
  dsimp only [Gen.V, Gen.hostOps0]; after_results

theorem mrow1 (c : Dev nD) (t : Fin cfg0.N) (a : Fin 2) :
    mrow a (iblk m c 1 t) = Cert.Bridge.exv (m ((c : Thread nD τ).loc main_arg1)) (bat t a) := by
  funext z
  obtain ⟨k, rfl⟩ : ∃ k : Fin 192, z = ix1 k := ⟨z 0, eq_ix1 z⟩
  show V m c main_v0 (((cfg0.win 1).blk t).view.emb (ix3 a (0 : Fin 1) k)) = m ((c : Thread nD τ).loc main_arg1) (ix2 (bat t a) k)
  rw [emb1, V_main_v0]
  exact broadcastInDim_apply _ bcast_S32x192_S32x1x192_0_2 _ (ix3 (bat t a) (0 : Fin 1) k) (ix2 (bat t a) k) (fun ax => match ax with
    | ⟨0, _⟩ => by show (bat t a).val = if (32 : Nat) = 1 then 0 else (bat t a).val; rw [if_neg (by decide)]
    | ⟨1, _⟩ => by show k.val = if (192 : Nat) = 1 then 0 else k.val; rw [if_neg (by decide)])

end Cert.KernelIdeal.Pts

end
-- ==== Proof.In2.lean ====
/-
  A matrix input window at a grid point.  Its block index is the point's number on the batch axis and zero on
  the other two, so element `(a, i, k)` of the block at point `t` is element `(2 t + a, i, k)` of the array, and
  example `a`'s slab of the block is batch entry `2 t + a` of the argument array, which no host operation
  writes before the region.
-/
import proofs.«427880_j88742614270726_3_alg».proof.Proof.Gen.KernelIdeal.Value
import proofs.«427880_j88742614270726_3_alg».proof.Proof.Bridge
import proofs.«427880_j88742614270726_3_alg».proof.Proof.Batch
import Idealize.ShloMosaic.Lib.StableHlo.Run

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index2 : ∀ t : Fin cfg0.N, win0_2.index t = ![t.val, 0, 0] := (by decide +kernel : ∀ t : Fin grid0.N, _)

theorem emb2 (t : Fin cfg0.N) (a : Fin 2) (i : Fin 192) (k : Fin 1024) :
    ((cfg0.win 2).blk t).view.emb (ix3 a i k) = ix3 (bat t a) i k := by
  funext ax; apply Fin.ext
  have e := index2 t
  match ax with
  | ⟨0, _⟩ => show win0_2.index t (0 : Fin 3) * 2 + 1 * a.val = t.val * 2 + a.val; rw [e]; show t.val * 2 + 1 * a.val = _; omega
  | ⟨1, _⟩ => show win0_2.index t (1 : Fin 3) * 192 + 1 * i.val = i.val; rw [e]; show 0 * 192 + 1 * i.val = _; omega
  | ⟨2, _⟩ => show win0_2.index t (2 : Fin 3) * 1024 + 1 * k.val = k.val; rw [e]; show 0 * 1024 + 1 * k.val = _; omega

theorem slab2 (c : Dev nD) (t : Fin cfg0.N) (a : Fin 2) :
    slab a (iblk m c 2 t) = Cert.Bridge.exm (m ((c : Thread nD τ).loc main_arg2)) (bat t a) := by
  funext z
  obtain ⟨p, q, rfl⟩ : ∃ (p : Fin 192) (q : Fin 1024), z = ix2 p q := ⟨z 0, z 1, eq_ix2 z⟩
  show V m c main_arg2 (((cfg0.win 2).blk t).view.emb (ix3 a p q)) = m ((c : Thread nD τ).loc main_arg2) (ix3 (bat t a) p q)
  rw [emb2, V_main_arg2]

end Cert.KernelIdeal.Pts

end
-- ==== Proof.In3.lean ====
/-
  A mask input window at a grid point.  The array it stages is the mask argument given a middle unit axis by a
  host operation before the region; its block index is the point's number on the batch axis.  So example `a`'s
  mask row of the block at point `t` is batch entry `2 t + a` of the mask argument.
-/
import proofs.«427880_j88742614270726_3_alg».proof.Proof.Gen.KernelIdeal.Value
import proofs.«427880_j88742614270726_3_alg».proof.Proof.Bridge
import proofs.«427880_j88742614270726_3_alg».proof.Proof.Batch
import Idealize.ShloMosaic.Lib.StableHlo.Run

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index3 : ∀ t : Fin cfg0.N, win0_3.index t = ![t.val, 0, 0] := (by decide +kernel : ∀ t : Fin grid0.N, _)

theorem emb3 (t : Fin cfg0.N) (a : Fin 2) (u : Fin 1) (k : Fin 192) :
    ((cfg0.win 3).blk t).view.emb (ix3 a u k) = ix3 (bat t a) (0 : Fin 1) k := by
  funext ax; apply Fin.ext
  have e := index3 t
  have hu : u.val = 0 := by omega
  match ax with
  | ⟨0, _⟩ => show win0_3.index t (0 : Fin 3) * 2 + 1 * a.val = t.val * 2 + a.val; rw [e]; show t.val * 2 + 1 * a.val = _; omega
  | ⟨1, _⟩ => show win0_3.index t (1 : Fin 3) * 1 + 1 * u.val = 0; rw [e]; show 0 * 1 + 1 * u.val = _; omega
  | ⟨2, _⟩ => show win0_3.index t (2 : Fin 3) * 192 + 1 * k.val = k.val; rw [e]; show 0 * 192 + 1 * k.val = _; omega

/-- The staged array is the mask argument with a unit axis inserted, as the host operation before the region left it. -/
theorem V_main_v1 (c : Dev nD) :
    (V m c main_v1 : S32x1x192.Idx → EReal) = broadcastInDim S32x1x192 ![0, 2] bcast_S32x192_S32x1x192_0_2 (m ((c : Thread nD τ).loc main_arg3)) := by
  dsimp only [Gen.V, Gen.hostOps0]; after_results

theorem mrow3 (c : Dev nD) (t : Fin cfg0.N) (a : Fin 2) :
    mrow a (iblk m c 3 t) = Cert.Bridge.exv (m ((c : Thread nD τ).loc main_arg3)) (bat t a) := by
  funext z
  obtain ⟨k, rfl⟩ : ∃ k : Fin 192, z = ix1 k := ⟨z 0, eq_ix1 z⟩
  show V m c main_v1 (((cfg0.win 3).blk t).view.emb (ix3 a (0 : Fin 1) k)) = m ((c : Thread nD τ).loc main_arg3) (ix2 (bat t a) k)
  rw [emb3, V_main_v1]
  exact broadcastInDim_apply _ bcast_S32x192_S32x1x192_0_2 _ (ix3 (bat t a) (0 : Fin 1) k) (ix2 (bat t a) k) (fun ax => match ax with
    | ⟨0, _⟩ => by show (bat t a).val = if (32 : Nat) = 1 then 0 else (bat t a).val; rw [if_neg (by decide)]
    | ⟨1, _⟩ => by show k.val = if (192 : Nat) = 1 then 0 else k.val; rw [if_neg (by decide)])

end Cert.KernelIdeal.Pts

end
-- ==== Proof.In4.lean ====
/-
  A matrix input window at a grid point.  Its block index is the point's number on the batch axis and zero on
  the other two, so element `(a, i, k)` of the block at point `t` is element `(2 t + a, i, k)` of the array, and
  example `a`'s slab of the block is batch entry `2 t + a` of the argument array, which no host operation
  writes before the region.
-/
import proofs.«427880_j88742614270726_3_alg».proof.Proof.Gen.KernelIdeal.Value
import proofs.«427880_j88742614270726_3_alg».proof.Proof.Bridge
import proofs.«427880_j88742614270726_3_alg».proof.Proof.Batch
import Idealize.ShloMosaic.Lib.StableHlo.Run

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index4 : ∀ t : Fin cfg0.N, win0_4.index t = ![t.val, 0, 0] := (by decide +kernel : ∀ t : Fin grid0.N, _)

theorem emb4 (t : Fin cfg0.N) (a : Fin 2) (i : Fin 192) (k : Fin 1024) :
    ((cfg0.win 4).blk t).view.emb (ix3 a i k) = ix3 (bat t a) i k := by
  funext ax; apply Fin.ext
  have e := index4 t
  match ax with
  | ⟨0, _⟩ => show win0_4.index t (0 : Fin 3) * 2 + 1 * a.val = t.val * 2 + a.val; rw [e]; show t.val * 2 + 1 * a.val = _; omega
  | ⟨1, _⟩ => show win0_4.index t (1 : Fin 3) * 192 + 1 * i.val = i.val; rw [e]; show 0 * 192 + 1 * i.val = _; omega
  | ⟨2, _⟩ => show win0_4.index t (2 : Fin 3) * 1024 + 1 * k.val = k.val; rw [e]; show 0 * 1024 + 1 * k.val = _; omega

theorem slab4 (c : Dev nD) (t : Fin cfg0.N) (a : Fin 2) :
    slab a (iblk m c 4 t) = Cert.Bridge.exm (m ((c : Thread nD τ).loc main_arg4)) (bat t a) := by
  funext z
  obtain ⟨p, q, rfl⟩ : ∃ (p : Fin 192) (q : Fin 1024), z = ix2 p q := ⟨z 0, z 1, eq_ix2 z⟩
  show V m c main_arg4 (((cfg0.win 4).blk t).view.emb (ix3 a p q)) = m ((c : Thread nD τ).loc main_arg4) (ix3 (bat t a) p q)
  rw [emb4, V_main_arg4]

end Cert.KernelIdeal.Pts

end
-- ==== Proof.In5.lean ====
/-
  A matrix input window at a grid point.  Its block index is the point's number on the batch axis and zero on
  the other two, so element `(a, i, k)` of the block at point `t` is element `(2 t + a, i, k)` of the array, and
  example `a`'s slab of the block is batch entry `2 t + a` of the argument array, which no host operation
  writes before the region.
-/
import proofs.«427880_j88742614270726_3_alg».proof.Proof.Gen.KernelIdeal.Value
import proofs.«427880_j88742614270726_3_alg».proof.Proof.Bridge
import proofs.«427880_j88742614270726_3_alg».proof.Proof.Batch
import Idealize.ShloMosaic.Lib.StableHlo.Run

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index5 : ∀ t : Fin cfg0.N, win0_5.index t = ![t.val, 0, 0] := (by decide +kernel : ∀ t : Fin grid0.N, _)

theorem emb5 (t : Fin cfg0.N) (a : Fin 2) (i : Fin 192) (k : Fin 1024) :
    ((cfg0.win 5).blk t).view.emb (ix3 a i k) = ix3 (bat t a) i k := by
  funext ax; apply Fin.ext
  have e := index5 t
  match ax with
  | ⟨0, _⟩ => show win0_5.index t (0 : Fin 3) * 2 + 1 * a.val = t.val * 2 + a.val; rw [e]; show t.val * 2 + 1 * a.val = _; omega
  | ⟨1, _⟩ => show win0_5.index t (1 : Fin 3) * 192 + 1 * i.val = i.val; rw [e]; show 0 * 192 + 1 * i.val = _; omega
  | ⟨2, _⟩ => show win0_5.index t (2 : Fin 3) * 1024 + 1 * k.val = k.val; rw [e]; show 0 * 1024 + 1 * k.val = _; omega

theorem slab5 (c : Dev nD) (t : Fin cfg0.N) (a : Fin 2) :
    slab a (iblk m c 5 t) = Cert.Bridge.exm (m ((c : Thread nD τ).loc main_arg5)) (bat t a) := by
  funext z
  obtain ⟨p, q, rfl⟩ : ∃ (p : Fin 192) (q : Fin 1024), z = ix2 p q := ⟨z 0, z 1, eq_ix2 z⟩
  show V m c main_arg5 (((cfg0.win 5).blk t).view.emb (ix3 a p q)) = m ((c : Thread nD τ).loc main_arg5) (ix3 (bat t a) p q)
  rw [emb5, V_main_arg5]

end Cert.KernelIdeal.Pts

end
-- ==== Proof.Out6.lean ====
/-
  An output window from its blocks to its whole array.  At grid point `t` the body's two stores leave, at
  `(a, i, j)` of the block, example `a`'s result at `(i, j)` as a function of the slabs of the input blocks;
  those slabs are batch entry `2 t + a` of the argument arrays; by the bridge that value is the reference's
  stage at `(2 t + a, i, j)`, which is where the block's `(a, i, j)` lies in the array.  So every point writes back
  its block of one whole-array function, the blocks cover the array (entry `b` lies in the block of point `b / 2`),
  and the array ends holding that function of the arguments.
-/
import proofs.«427880_j88742614270726_3_alg».proof.Proof.In0
import proofs.«427880_j88742614270726_3_alg».proof.Proof.In1
import proofs.«427880_j88742614270726_3_alg».proof.Proof.In2
import proofs.«427880_j88742614270726_3_alg».proof.Proof.In3
import proofs.«427880_j88742614270726_3_alg».proof.Proof.In4
import proofs.«427880_j88742614270726_3_alg».proof.Proof.In5

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index6 : ∀ t : Fin cfg0.N, win0_6.index t = ![t.val, 0, 0] := (by decide +kernel : ∀ t : Fin grid0.N, _)

theorem emb6 (t : Fin cfg0.N) (a : Fin 2) (i : Fin 192) (j : Fin 192) :
    ((cfg0.win 6).blk t).view.emb (ix3 a i j) = ix3 (bat t a) i j := by
  funext ax; apply Fin.ext
  have e := index6 t
  match ax with
  | ⟨0, _⟩ => show win0_6.index t (0 : Fin 3) * 2 + 1 * a.val = t.val * 2 + a.val; rw [e]; show t.val * 2 + 1 * a.val = _; omega
  | ⟨1, _⟩ => show win0_6.index t (1 : Fin 3) * 192 + 1 * i.val = i.val; rw [e]; show 0 * 192 + 1 * i.val = _; omega
  | ⟨2, _⟩ => show win0_6.index t (2 : Fin 3) * 192 + 1 * j.val = j.val; rw [e]; show 0 * 192 + 1 * j.val = _; omega

/-- The block the body leaves, read at example `a`: that example's result of its slabs. -/
theorem out6_apply (x0 x2 x4 x5 : Vec Ideal S2x192x1024 .f32) (x1 x3 : Vec Ideal S2x1x192 .f32) (a : Fin 2) (i : Fin 192) (j : Fin 192) :
    out0_6 x0 x1 x2 x3 x4 x5 (ix3 a i j) = totP (slab a x0) (slab a x2) (slab a x4) (slab a x5) (mrow a x3) (ix2 i j) := by
  unfold out0_6
  match a with
  | ⟨0, _⟩ =>
    refine (canon_sq0 _ _ i j).trans ?_
    show up (totP (sq (View.ld x0 r0_0)) (sq (View.ld x2 r0_0)) (sq (View.ld x4 r0_0)) (sq (View.ld x5 r0_0)) (sqm (View.ld x3 r0_1))) (ix3 (0 : Fin 1) i j) = _
    simp only [up_apply, sq_ld0, sqm_ld0]
    rfl
  | ⟨1, _⟩ =>
    refine (canon_sq1 _ _ i j).trans ?_
    show up (totP (sq (View.ld x0 r0_3)) (sq (View.ld x2 r0_3)) (sq (View.ld x4 r0_3)) (sq (View.ld x5 r0_3)) (sqm (View.ld x3 r0_4))) (ix3 (0 : Fin 1) i j) = _
    simp only [up_apply, sq_ld1, sqm_ld1]
    rfl

/-- What point `t` writes back is its block of the reference's stage of the argument arrays. -/
theorem flushed6_eq (c : Dev nD) (t : Fin cfg0.N) :
    (dats m 0 c).flushed 6 t = ((cfg0.win 6).blk t).view.read (Elt Ideal)
      (Cert.ReferenceIdeal.Read.val_main_v92 (F := Ideal) (m ((c : Thread nD τ).loc main_arg0)) (m ((c : Thread nD τ).loc main_arg2)) (m ((c : Thread nD τ).loc main_arg3)) (m ((c : Thread nD τ).loc main_arg4)) (m ((c : Thread nD τ).loc main_arg5))) := by
  rw [Cert.KernelIdeal.Value.flushed6]
  funext y
  obtain ⟨a, i, j, rfl⟩ : ∃ (a : Fin 2) (i : Fin 192) (j : Fin 192), y = ix3 a i j := ⟨y 0, y 1, y 2, eq_ix3 y⟩
  show out0_6 (iblk m c 0 t) (iblk m c 1 t) (iblk m c 2 t) (iblk m c 3 t) (iblk m c 4 t) (iblk m c 5 t) (ix3 a i j)
    = Cert.ReferenceIdeal.Read.val_main_v92 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (((cfg0.win 6).blk t).view.emb (ix3 a i j))
  rw [emb6, out6_apply, Cert.Bridge.totalP]
  simp only [slab0, slab2, slab4, slab5, mrow1, mrow3]

theorem mem6 (t : Fin cfg0.N) (a : Fin 2) (p : Fin 192) (q : Fin 192) (b : Fin 32) (hb : b.val = t.val * 2 + a.val) :
    (ix3 b p q : S32x192x192.Idx) ∈ ((cfg0.win 6).blk t).view.set := by
  have e : b = bat t a := Fin.ext hb
  subst e
  rw [← emb6]
  exact ((cfg0.win 6).blk t).view.emb_mem_set _

theorem cover6 (i : S32x192x192.Idx) : ∃ t : Fin cfg0.N, (cfg0.win 6).flush t = true ∧ i ∈ ((cfg0.win 6).blk t).view.set := by
  obtain ⟨b, p, q, rfl⟩ : ∃ (b : Fin 32) (p : Fin 192) (q : Fin 192), i = ix3 b p q := ⟨i 0, i 1, i 2, eq_ix3 i⟩
  have hb := b.isLt
  exact ⟨⟨b.val / 2, by rw [show cfg0.N = 16 from N_0]; omega⟩, flush0_6 _, mem6 _ ⟨b.val % 2, by omega⟩ p q b (by show b.val = b.val / 2 * 2 + b.val % 2; omega)⟩

/-- The array after the run. -/
theorem final6 (c : Dev nD) :
    (dats m 0 c).arrAt 6 cfg0.N = Cert.ReferenceIdeal.Read.val_main_v92 (F := Ideal) (m ((c : Thread nD τ).loc main_arg0)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed6_eq m c t) cover6

end Cert.KernelIdeal.Pts

end
-- ==== Proof.Out7.lean ====
/-
  An output window from its blocks to its whole array.  At grid point `t` the body's two stores leave, at
  `(a, i, j)` of the block, example `a`'s result at `(i, j)` as a function of the slabs of the input blocks;
  those slabs are batch entry `2 t + a` of the argument arrays; by the bridge that value is the reference's
  stage at `(2 t + a, i, j)`, which is where the block's `(a, i, j)` lies in the array.  So every point writes back
  its block of one whole-array function, the blocks cover the array (entry `b` lies in the block of point `b / 2`),
  and the array ends holding that function of the arguments.
-/
import proofs.«427880_j88742614270726_3_alg».proof.Proof.In0
import proofs.«427880_j88742614270726_3_alg».proof.Proof.In1
import proofs.«427880_j88742614270726_3_alg».proof.Proof.In2
import proofs.«427880_j88742614270726_3_alg».proof.Proof.In3
import proofs.«427880_j88742614270726_3_alg».proof.Proof.In4
import proofs.«427880_j88742614270726_3_alg».proof.Proof.In5

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index7 : ∀ t : Fin cfg0.N, win0_7.index t = ![t.val, 0, 0] := (by decide +kernel : ∀ t : Fin grid0.N, _)

theorem emb7 (t : Fin cfg0.N) (a : Fin 2) (i : Fin 192) (j : Fin 192) :
    ((cfg0.win 7).blk t).view.emb (ix3 a i j) = ix3 (bat t a) i j := by
  funext ax; apply Fin.ext
  have e := index7 t
  match ax with
  | ⟨0, _⟩ => show win0_7.index t (0 : Fin 3) * 2 + 1 * a.val = t.val * 2 + a.val; rw [e]; show t.val * 2 + 1 * a.val = _; omega
  | ⟨1, _⟩ => show win0_7.index t (1 : Fin 3) * 192 + 1 * i.val = i.val; rw [e]; show 0 * 192 + 1 * i.val = _; omega
  | ⟨2, _⟩ => show win0_7.index t (2 : Fin 3) * 192 + 1 * j.val = j.val; rw [e]; show 0 * 192 + 1 * j.val = _; omega

/-- The block the body leaves, read at example `a`: that example's result of its slabs. -/
theorem out7_apply (x0 x2 x4 x5 : Vec Ideal S2x192x1024 .f32) (x1 x3 : Vec Ideal S2x1x192 .f32) (a : Fin 2) (i : Fin 192) (j : Fin 192) :
    out0_7 x0 x1 x2 x3 x4 x5 (ix3 a i j) = totH (slab a x0) (slab a x2) (slab a x4) (slab a x5) (mrow a x1) (ix2 i j) := by
  unfold out0_7
  match a with
  | ⟨0, _⟩ =>
    refine (canon_sq0 _ _ i j).trans ?_
    show up (totH (sq (View.ld x0 r0_0)) (sq (View.ld x2 r0_0)) (sq (View.ld x4 r0_0)) (sq (View.ld x5 r0_0)) (sqm (View.ld x1 r0_1))) (ix3 (0 : Fin 1) i j) = _
    simp only [up_apply, sq_ld0, sqm_ld0]
    rfl
  | ⟨1, _⟩ =>
    refine (canon_sq1 _ _ i j).trans ?_
    show up (totH (sq (View.ld x0 r0_3)) (sq (View.ld x2 r0_3)) (sq (View.ld x4 r0_3)) (sq (View.ld x5 r0_3)) (sqm (View.ld x1 r0_4))) (ix3 (0 : Fin 1) i j) = _
    simp only [up_apply, sq_ld1, sqm_ld1]
    rfl

/-- What point `t` writes back is its block of the reference's stage of the argument arrays. -/
theorem flushed7_eq (c : Dev nD) (t : Fin cfg0.N) :
    (dats m 0 c).flushed 7 t = ((cfg0.win 7).blk t).view.read (Elt Ideal)
      (Cert.ReferenceIdeal.Read.val_main_v93 (F := Ideal) (m ((c : Thread nD τ).loc main_arg0)) (m ((c : Thread nD τ).loc main_arg1)) (m ((c : Thread nD τ).loc main_arg2)) (m ((c : Thread nD τ).loc main_arg4)) (m ((c : Thread nD τ).loc main_arg5))) := by
  rw [Cert.KernelIdeal.Value.flushed7]
  funext y
  obtain ⟨a, i, j, rfl⟩ : ∃ (a : Fin 2) (i : Fin 192) (j : Fin 192), y = ix3 a i j := ⟨y 0, y 1, y 2, eq_ix3 y⟩
  show out0_7 (iblk m c 0 t) (iblk m c 1 t) (iblk m c 2 t) (iblk m c 3 t) (iblk m c 4 t) (iblk m c 5 t) (ix3 a i j)
    = Cert.ReferenceIdeal.Read.val_main_v93 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (((cfg0.win 7).blk t).view.emb (ix3 a i j))
  rw [emb7, out7_apply, Cert.Bridge.totalH]
  simp only [slab0, slab2, slab4, slab5, mrow1, mrow3]

theorem mem7 (t : Fin cfg0.N) (a : Fin 2) (p : Fin 192) (q : Fin 192) (b : Fin 32) (hb : b.val = t.val * 2 + a.val) :
    (ix3 b p q : S32x192x192.Idx) ∈ ((cfg0.win 7).blk t).view.set := by
  have e : b = bat t a := Fin.ext hb
  subst e
  rw [← emb7]
  exact ((cfg0.win 7).blk t).view.emb_mem_set _

theorem cover7 (i : S32x192x192.Idx) : ∃ t : Fin cfg0.N, (cfg0.win 7).flush t = true ∧ i ∈ ((cfg0.win 7).blk t).view.set := by
  obtain ⟨b, p, q, rfl⟩ : ∃ (b : Fin 32) (p : Fin 192) (q : Fin 192), i = ix3 b p q := ⟨i 0, i 1, i 2, eq_ix3 i⟩
  have hb := b.isLt
  exact ⟨⟨b.val / 2, by rw [show cfg0.N = 16 from N_0]; omega⟩, flush0_7 _, mem7 _ ⟨b.val % 2, by omega⟩ p q b (by show b.val = b.val / 2 * 2 + b.val % 2; omega)⟩

/-- The array after the run. -/
theorem final7 (c : Dev nD) :
    (dats m 0 c).arrAt 7 cfg0.N = Cert.ReferenceIdeal.Read.val_main_v93 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (dats m 0 c).arrAt_eq_of_cover 7 _ (fun t _ => flushed7_eq m c t) cover7

end Cert.KernelIdeal.Pts

end
-- ==== Proof.Out8.lean ====
/-
  An output window from its blocks to its whole array.  At grid point `t` the body's two stores leave, at
  `(a, i, j)` of the block, example `a`'s result at `(i, j)` as a function of the slabs of the input blocks;
  those slabs are batch entry `2 t + a` of the argument arrays; by the bridge that value is the reference's
  stage at `(2 t + a, i, j)`, which is where the block's `(a, i, j)` lies in the array.  So every point writes back
  its block of one whole-array function, the blocks cover the array (entry `b` lies in the block of point `b / 2`),
  and the array ends holding that function of the arguments.
-/
import proofs.«427880_j88742614270726_3_alg».proof.Proof.In0
import proofs.«427880_j88742614270726_3_alg».proof.Proof.In1
import proofs.«427880_j88742614270726_3_alg».proof.Proof.In2
import proofs.«427880_j88742614270726_3_alg».proof.Proof.In3
import proofs.«427880_j88742614270726_3_alg».proof.Proof.In4
import proofs.«427880_j88742614270726_3_alg».proof.Proof.In5

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index8 : ∀ t : Fin cfg0.N, win0_8.index t = ![t.val, 0, 0] := (by decide +kernel : ∀ t : Fin grid0.N, _)

theorem emb8 (t : Fin cfg0.N) (a : Fin 2) (i : Fin 192) (j : Fin 1024) :
    ((cfg0.win 8).blk t).view.emb (ix3 a i j) = ix3 (bat t a) i j := by
  funext ax; apply Fin.ext
  have e := index8 t
  match ax with
  | ⟨0, _⟩ => show win0_8.index t (0 : Fin 3) * 2 + 1 * a.val = t.val * 2 + a.val; rw [e]; show t.val * 2 + 1 * a.val = _; omega
  | ⟨1, _⟩ => show win0_8.index t (1 : Fin 3) * 192 + 1 * i.val = i.val; rw [e]; show 0 * 192 + 1 * i.val = _; omega
  | ⟨2, _⟩ => show win0_8.index t (2 : Fin 3) * 1024 + 1 * j.val = j.val; rw [e]; show 0 * 1024 + 1 * j.val = _; omega

/-- The block the body leaves, read at example `a`: that example's result of its slabs. -/
theorem out8_apply (x0 x2 x4 x5 : Vec Ideal S2x192x1024 .f32) (x1 x3 : Vec Ideal S2x1x192 .f32) (a : Fin 2) (i : Fin 192) (j : Fin 1024) :
    out0_8 x0 x1 x2 x3 x4 x5 (ix3 a i j) = attPrem (slab a x0) (slab a x2) (slab a x4) (slab a x5) (mrow a x1) (mrow a x3) (ix2 i j) := by
  unfold out0_8
  match a with
  | ⟨0, _⟩ =>
    refine (canon_wd0 _ _ i j).trans ?_
    show upK (attPrem (sq (View.ld x0 r0_0)) (sq (View.ld x2 r0_0)) (sq (View.ld x4 r0_0)) (sq (View.ld x5 r0_0)) (sqm (View.ld x1 r0_1)) (sqm (View.ld x3 r0_1))) (ix3 (0 : Fin 1) i j) = _
    simp only [upK_apply, sq_ld0, sqm_ld0]
    rfl
  | ⟨1, _⟩ =>
    refine (canon_wd1 _ _ i j).trans ?_
    show upK (attPrem (sq (View.ld x0 r0_3)) (sq (View.ld x2 r0_3)) (sq (View.ld x4 r0_3)) (sq (View.ld x5 r0_3)) (sqm (View.ld x1 r0_4)) (sqm (View.ld x3 r0_4))) (ix3 (0 : Fin 1) i j) = _
    simp only [upK_apply, sq_ld1, sqm_ld1]
    rfl

/-- What point `t` writes back is its block of the reference's stage of the argument arrays. -/
theorem flushed8_eq (c : Dev nD) (t : Fin cfg0.N) :
    (dats m 0 c).flushed 8 t = ((cfg0.win 8).blk t).view.read (Elt Ideal)
      (Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KernelIdeal.Value.flushed8]
  funext y
  obtain ⟨a, i, j, rfl⟩ : ∃ (a : Fin 2) (i : Fin 192) (j : Fin 1024), y = ix3 a i j := ⟨y 0, y 1, y 2, eq_ix3 y⟩
  show out0_8 (iblk m c 0 t) (iblk m c 1 t) (iblk m c 2 t) (iblk m c 3 t) (iblk m c 4 t) (iblk m c 5 t) (ix3 a i j)
    = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb (ix3 a i j))
  rw [emb8, out8_apply, Cert.Bridge.attendedPrem]
  simp only [slab0, slab2, slab4, slab5, mrow1, mrow3]

theorem mem8 (t : Fin cfg0.N) (a : Fin 2) (p : Fin 192) (q : Fin 1024) (b : Fin 32) (hb : b.val = t.val * 2 + a.val) :
    (ix3 b p q : S32x192x1024.Idx) ∈ ((cfg0.win 8).blk t).view.set := by
  have e : b = bat t a := Fin.ext hb
  subst e
  rw [← emb8]
  exact ((cfg0.win 8).blk t).view.emb_mem_set _

theorem cover8 (i : S32x192x1024.Idx) : ∃ t : Fin cfg0.N, (cfg0.win 8).flush t = true ∧ i ∈ ((cfg0.win 8).blk t).view.set := by
  obtain ⟨b, p, q, rfl⟩ : ∃ (b : Fin 32) (p : Fin 192) (q : Fin 1024), i = ix3 b p q := ⟨i 0, i 1, i 2, eq_ix3 i⟩
  have hb := b.isLt
  exact ⟨⟨b.val / 2, by rw [show cfg0.N = 16 from N_0]; omega⟩, flush0_8 _, mem8 _ ⟨b.val % 2, by omega⟩ p q b (by show b.val = b.val / 2 * 2 + b.val % 2; omega)⟩

/-- The array after the run. -/
theorem final8 (c : Dev nD) :
    (dats m 0 c).arrAt 8 cfg0.N = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 8 _ (fun t _ => flushed8_eq m c t) cover8

end Cert.KernelIdeal.Pts

end
-- ==== Proof.Out9.lean ====
/-
  An output window from its blocks to its whole array.  At grid point `t` the body's two stores leave, at
  `(a, i, j)` of the block, example `a`'s result at `(i, j)` as a function of the slabs of the input blocks;
  those slabs are batch entry `2 t + a` of the argument arrays; by the bridge that value is the reference's
  stage at `(2 t + a, i, j)`, which is where the block's `(a, i, j)` lies in the array.  So every point writes back
  its block of one whole-array function, the blocks cover the array (entry `b` lies in the block of point `b / 2`),
  and the array ends holding that function of the arguments.
-/
import proofs.«427880_j88742614270726_3_alg».proof.Proof.In0
import proofs.«427880_j88742614270726_3_alg».proof.Proof.In1
import proofs.«427880_j88742614270726_3_alg».proof.Proof.In2
import proofs.«427880_j88742614270726_3_alg».proof.Proof.In3
import proofs.«427880_j88742614270726_3_alg».proof.Proof.In4
import proofs.«427880_j88742614270726_3_alg».proof.Proof.In5

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index9 : ∀ t : Fin cfg0.N, win0_9.index t = ![t.val, 0, 0] := (by decide +kernel : ∀ t : Fin grid0.N, _)

theorem emb9 (t : Fin cfg0.N) (a : Fin 2) (i : Fin 192) (j : Fin 1024) :
    ((cfg0.win 9).blk t).view.emb (ix3 a i j) = ix3 (bat t a) i j := by
  funext ax; apply Fin.ext
  have e := index9 t
  match ax with
  | ⟨0, _⟩ => show win0_9.index t (0 : Fin 3) * 2 + 1 * a.val = t.val * 2 + a.val; rw [e]; show t.val * 2 + 1 * a.val = _; omega
  | ⟨1, _⟩ => show win0_9.index t (1 : Fin 3) * 192 + 1 * i.val = i.val; rw [e]; show 0 * 192 + 1 * i.val = _; omega
  | ⟨2, _⟩ => show win0_9.index t (2 : Fin 3) * 1024 + 1 * j.val = j.val; rw [e]; show 0 * 1024 + 1 * j.val = _; omega

/-- The block the body leaves, read at example `a`: that example's result of its slabs. -/
theorem out9_apply (x0 x2 x4 x5 : Vec Ideal S2x192x1024 .f32) (x1 x3 : Vec Ideal S2x1x192 .f32) (a : Fin 2) (i : Fin 192) (j : Fin 1024) :
    out0_9 x0 x1 x2 x3 x4 x5 (ix3 a i j) = attPremG (slab a x4) (slab a x5) (mrow a x1) (mrow a x3) (ix2 i j) := by
  unfold out0_9
  match a with
  | ⟨0, _⟩ =>
    refine (canon_wd0 _ _ i j).trans ?_
    show upK (attPremG (sq (View.ld x4 r0_0)) (sq (View.ld x5 r0_0)) (sqm (View.ld x1 r0_1)) (sqm (View.ld x3 r0_1))) (ix3 (0 : Fin 1) i j) = _
    simp only [upK_apply, sq_ld0, sqm_ld0]
    rfl
  | ⟨1, _⟩ =>
    refine (canon_wd1 _ _ i j).trans ?_
    show upK (attPremG (sq (View.ld x4 r0_3)) (sq (View.ld x5 r0_3)) (sqm (View.ld x1 r0_4)) (sqm (View.ld x3 r0_4))) (ix3 (0 : Fin 1) i j) = _
    simp only [upK_apply, sq_ld1, sqm_ld1]
    rfl

/-- What point `t` writes back is its block of the reference's stage of the argument arrays. -/
theorem flushed9_eq (c : Dev nD) (t : Fin cfg0.N) :
    (dats m 0 c).flushed 9 t = ((cfg0.win 9).blk t).view.read (Elt Ideal)
      (Cert.ReferenceIdeal.Read.val_main_v105 (F := Ideal) (m ((c : Thread nD τ).loc main_arg1)) (m ((c : Thread nD τ).loc main_arg3)) (m ((c : Thread nD τ).loc main_arg4)) (m ((c : Thread nD τ).loc main_arg5))) := by
  rw [Cert.KernelIdeal.Value.flushed9]
  funext y
  obtain ⟨a, i, j, rfl⟩ : ∃ (a : Fin 2) (i : Fin 192) (j : Fin 1024), y = ix3 a i j := ⟨y 0, y 1, y 2, eq_ix3 y⟩
  show out0_9 (iblk m c 0 t) (iblk m c 1 t) (iblk m c 2 t) (iblk m c 3 t) (iblk m c 4 t) (iblk m c 5 t) (ix3 a i j)
    = Cert.ReferenceIdeal.Read.val_main_v105 (F := Ideal) (m ((c : Thread nD τ).loc main_arg1)) (m ((c : Thread nD τ).loc main_arg3)) (m ((c : Thread nD τ).loc main_arg4)) (m ((c : Thread nD τ).loc main_arg5)) (((cfg0.win 9).blk t).view.emb (ix3 a i j))
  rw [emb9, out9_apply, Cert.Bridge.attendedPremG]
  simp only [slab0, slab2, slab4, slab5, mrow1, mrow3]

theorem mem9 (t : Fin cfg0.N) (a : Fin 2) (p : Fin 192) (q : Fin 1024) (b : Fin 32) (hb : b.val = t.val * 2 + a.val) :
    (ix3 b p q : S32x192x1024.Idx) ∈ ((cfg0.win 9).blk t).view.set := by
  have e : b = bat t a := Fin.ext hb
  subst e
  rw [← emb9]
  exact ((cfg0.win 9).blk t).view.emb_mem_set _

theorem cover9 (i : S32x192x1024.Idx) : ∃ t : Fin cfg0.N, (cfg0.win 9).flush t = true ∧ i ∈ ((cfg0.win 9).blk t).view.set := by
  obtain ⟨b, p, q, rfl⟩ : ∃ (b : Fin 32) (p : Fin 192) (q : Fin 1024), i = ix3 b p q := ⟨i 0, i 1, i 2, eq_ix3 i⟩
  have hb := b.isLt
  exact ⟨⟨b.val / 2, by rw [show cfg0.N = 16 from N_0]; omega⟩, flush0_9 _, mem9 _ ⟨b.val % 2, by omega⟩ p q b (by show b.val = b.val / 2 * 2 + b.val % 2; omega)⟩

/-- The array after the run. -/
theorem final9 (c : Dev nD) :
    (dats m 0 c).arrAt 9 cfg0.N = Cert.ReferenceIdeal.Read.val_main_v105 (F := Ideal) (m ((c : Thread nD τ).loc main_arg1)) (m ((c : Thread nD τ).loc main_arg3)) (m ((c : Thread nD τ).loc main_arg4)) (m ((c : Thread nD τ).loc main_arg5)) :=
  (dats m 0 c).arrAt_eq_of_cover 9 _ (fun t _ => flushed9_eq m c t) cover9

end Cert.KernelIdeal.Pts

end
-- ==== Proof.Out10.lean ====
/-
  An output window from its blocks to its whole array.  At grid point `t` the body's two stores leave, at
  `(a, i, j)` of the block, example `a`'s result at `(i, j)` as a function of the slabs of the input blocks;
  those slabs are batch entry `2 t + a` of the argument arrays; by the bridge that value is the reference's
  stage at `(2 t + a, i, j)`, which is where the block's `(a, i, j)` lies in the array.  So every point writes back
  its block of one whole-array function, the blocks cover the array (entry `b` lies in the block of point `b / 2`),
  and the array ends holding that function of the arguments.
-/
import proofs.«427880_j88742614270726_3_alg».proof.Proof.In0
import proofs.«427880_j88742614270726_3_alg».proof.Proof.In1
import proofs.«427880_j88742614270726_3_alg».proof.Proof.In2
import proofs.«427880_j88742614270726_3_alg».proof.Proof.In3
import proofs.«427880_j88742614270726_3_alg».proof.Proof.In4
import proofs.«427880_j88742614270726_3_alg».proof.Proof.In5

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index10 : ∀ t : Fin cfg0.N, win0_10.index t = ![t.val, 0, 0] := (by decide +kernel : ∀ t : Fin grid0.N, _)

theorem emb10 (t : Fin cfg0.N) (a : Fin 2) (i : Fin 192) (j : Fin 1024) :
    ((cfg0.win 10).blk t).view.emb (ix3 a i j) = ix3 (bat t a) i j := by
  funext ax; apply Fin.ext
  have e := index10 t
  match ax with
  | ⟨0, _⟩ => show win0_10.index t (0 : Fin 3) * 2 + 1 * a.val = t.val * 2 + a.val; rw [e]; show t.val * 2 + 1 * a.val = _; omega
  | ⟨1, _⟩ => show win0_10.index t (1 : Fin 3) * 192 + 1 * i.val = i.val; rw [e]; show 0 * 192 + 1 * i.val = _; omega
  | ⟨2, _⟩ => show win0_10.index t (2 : Fin 3) * 1024 + 1 * j.val = j.val; rw [e]; show 0 * 1024 + 1 * j.val = _; omega

/-- The block the body leaves, read at example `a`: that example's result of its slabs. -/
theorem out10_apply (x0 x2 x4 x5 : Vec Ideal S2x192x1024 .f32) (x1 x3 : Vec Ideal S2x1x192 .f32) (a : Fin 2) (i : Fin 192) (j : Fin 1024) :
    out0_10 x0 x1 x2 x3 x4 x5 (ix3 a i j) = attHyp (slab a x0) (slab a x2) (slab a x4) (slab a x5) (mrow a x1) (mrow a x3) (ix2 i j) := by
  unfold out0_10
  match a with
  | ⟨0, _⟩ =>
    refine (canon_wd0 _ _ i j).trans ?_
    show upK (attHyp (sq (View.ld x0 r0_0)) (sq (View.ld x2 r0_0)) (sq (View.ld x4 r0_0)) (sq (View.ld x5 r0_0)) (sqm (View.ld x1 r0_1)) (sqm (View.ld x3 r0_1))) (ix3 (0 : Fin 1) i j) = _
    simp only [upK_apply, sq_ld0, sqm_ld0]
    rfl
  | ⟨1, _⟩ =>
    refine (canon_wd1 _ _ i j).trans ?_
    show upK (attHyp (sq (View.ld x0 r0_3)) (sq (View.ld x2 r0_3)) (sq (View.ld x4 r0_3)) (sq (View.ld x5 r0_3)) (sqm (View.ld x1 r0_4)) (sqm (View.ld x3 r0_4))) (ix3 (0 : Fin 1) i j) = _
    simp only [upK_apply, sq_ld1, sqm_ld1]
    rfl

/-- What point `t` writes back is its block of the reference's stage of the argument arrays. -/
theorem flushed10_eq (c : Dev nD) (t : Fin cfg0.N) :
    (dats m 0 c).flushed 10 t = ((cfg0.win 10).blk t).view.read (Elt Ideal)
      (Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KernelIdeal.Value.flushed10]
  funext y
  obtain ⟨a, i, j, rfl⟩ : ∃ (a : Fin 2) (i : Fin 192) (j : Fin 1024), y = ix3 a i j := ⟨y 0, y 1, y 2, eq_ix3 y⟩
  show out0_10 (iblk m c 0 t) (iblk m c 1 t) (iblk m c 2 t) (iblk m c 3 t) (iblk m c 4 t) (iblk m c 5 t) (ix3 a i j)
    = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 10).blk t).view.emb (ix3 a i j))
  rw [emb10, out10_apply, Cert.Bridge.attendedHyp]
  simp only [slab0, slab2, slab4, slab5, mrow1, mrow3]

theorem mem10 (t : Fin cfg0.N) (a : Fin 2) (p : Fin 192) (q : Fin 1024) (b : Fin 32) (hb : b.val = t.val * 2 + a.val) :
    (ix3 b p q : S32x192x1024.Idx) ∈ ((cfg0.win 10).blk t).view.set := by
  have e : b = bat t a := Fin.ext hb
  subst e
  rw [← emb10]
  exact ((cfg0.win 10).blk t).view.emb_mem_set _

theorem cover10 (i : S32x192x1024.Idx) : ∃ t : Fin cfg0.N, (cfg0.win 10).flush t = true ∧ i ∈ ((cfg0.win 10).blk t).view.set := by
  obtain ⟨b, p, q, rfl⟩ : ∃ (b : Fin 32) (p : Fin 192) (q : Fin 1024), i = ix3 b p q := ⟨i 0, i 1, i 2, eq_ix3 i⟩
  have hb := b.isLt
  exact ⟨⟨b.val / 2, by rw [show cfg0.N = 16 from N_0]; omega⟩, flush0_10 _, mem10 _ ⟨b.val % 2, by omega⟩ p q b (by show b.val = b.val / 2 * 2 + b.val % 2; omega)⟩

/-- The array after the run. -/
theorem final10 (c : Dev nD) :
    (dats m 0 c).arrAt 10 cfg0.N = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 10 _ (fun t _ => flushed10_eq m c t) cover10

end Cert.KernelIdeal.Pts

end
-- ==== Proof.Out11.lean ====
/-
  An output window from its blocks to its whole array.  At grid point `t` the body's two stores leave, at
  `(a, i, j)` of the block, example `a`'s result at `(i, j)` as a function of the slabs of the input blocks;
  those slabs are batch entry `2 t + a` of the argument arrays; by the bridge that value is the reference's
  stage at `(2 t + a, i, j)`, which is where the block's `(a, i, j)` lies in the array.  So every point writes back
  its block of one whole-array function, the blocks cover the array (entry `b` lies in the block of point `b / 2`),
  and the array ends holding that function of the arguments.
-/
import proofs.«427880_j88742614270726_3_alg».proof.Proof.In0
import proofs.«427880_j88742614270726_3_alg».proof.Proof.In1
import proofs.«427880_j88742614270726_3_alg».proof.Proof.In2
import proofs.«427880_j88742614270726_3_alg».proof.Proof.In3
import proofs.«427880_j88742614270726_3_alg».proof.Proof.In4
import proofs.«427880_j88742614270726_3_alg».proof.Proof.In5

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index11 : ∀ t : Fin cfg0.N, win0_11.index t = ![t.val, 0, 0] := (by decide +kernel : ∀ t : Fin grid0.N, _)

theorem emb11 (t : Fin cfg0.N) (a : Fin 2) (i : Fin 192) (j : Fin 1024) :
    ((cfg0.win 11).blk t).view.emb (ix3 a i j) = ix3 (bat t a) i j := by
  funext ax; apply Fin.ext
  have e := index11 t
  match ax with
  | ⟨0, _⟩ => show win0_11.index t (0 : Fin 3) * 2 + 1 * a.val = t.val * 2 + a.val; rw [e]; show t.val * 2 + 1 * a.val = _; omega
  | ⟨1, _⟩ => show win0_11.index t (1 : Fin 3) * 192 + 1 * i.val = i.val; rw [e]; show 0 * 192 + 1 * i.val = _; omega
  | ⟨2, _⟩ => show win0_11.index t (2 : Fin 3) * 1024 + 1 * j.val = j.val; rw [e]; show 0 * 1024 + 1 * j.val = _; omega

/-- The block the body leaves, read at example `a`: that example's result of its slabs. -/
theorem out11_apply (x0 x2 x4 x5 : Vec Ideal S2x192x1024 .f32) (x1 x3 : Vec Ideal S2x1x192 .f32) (a : Fin 2) (i : Fin 192) (j : Fin 1024) :
    out0_11 x0 x1 x2 x3 x4 x5 (ix3 a i j) = attHypG (slab a x4) (slab a x5) (mrow a x1) (mrow a x3) (ix2 i j) := by
  unfold out0_11
  match a with
  | ⟨0, _⟩ =>
    refine (canon_wd0 _ _ i j).trans ?_
    show upK (attHypG (sq (View.ld x4 r0_0)) (sq (View.ld x5 r0_0)) (sqm (View.ld x1 r0_1)) (sqm (View.ld x3 r0_1))) (ix3 (0 : Fin 1) i j) = _
    simp only [upK_apply, sq_ld0, sqm_ld0]
    rfl
  | ⟨1, _⟩ =>
    refine (canon_wd1 _ _ i j).trans ?_
    show upK (attHypG (sq (View.ld x4 r0_3)) (sq (View.ld x5 r0_3)) (sqm (View.ld x1 r0_4)) (sqm (View.ld x3 r0_4))) (ix3 (0 : Fin 1) i j) = _
    simp only [upK_apply, sq_ld1, sqm_ld1]
    rfl

/-- What point `t` writes back is its block of the reference's stage of the argument arrays. -/
theorem flushed11_eq (c : Dev nD) (t : Fin cfg0.N) :
    (dats m 0 c).flushed 11 t = ((cfg0.win 11).blk t).view.read (Elt Ideal)
      (Cert.ReferenceIdeal.Read.val_main_v109 (F := Ideal) (m ((c : Thread nD τ).loc main_arg1)) (m ((c : Thread nD τ).loc main_arg3)) (m ((c : Thread nD τ).loc main_arg4)) (m ((c : Thread nD τ).loc main_arg5))) := by
  rw [Cert.KernelIdeal.Value.flushed11]
  funext y
  obtain ⟨a, i, j, rfl⟩ : ∃ (a : Fin 2) (i : Fin 192) (j : Fin 1024), y = ix3 a i j := ⟨y 0, y 1, y 2, eq_ix3 y⟩
  show out0_11 (iblk m c 0 t) (iblk m c 1 t) (iblk m c 2 t) (iblk m c 3 t) (iblk m c 4 t) (iblk m c 5 t) (ix3 a i j)
    = Cert.ReferenceIdeal.Read.val_main_v109 (F := Ideal) (m ((c : Thread nD τ).loc main_arg1)) (m ((c : Thread nD τ).loc main_arg3)) (m ((c : Thread nD τ).loc main_arg4)) (m ((c : Thread nD τ).loc main_arg5)) (((cfg0.win 11).blk t).view.emb (ix3 a i j))
  rw [emb11, out11_apply, Cert.Bridge.attendedHypG]
  simp only [slab0, slab2, slab4, slab5, mrow1, mrow3]

theorem mem11 (t : Fin cfg0.N) (a : Fin 2) (p : Fin 192) (q : Fin 1024) (b : Fin 32) (hb : b.val = t.val * 2 + a.val) :
    (ix3 b p q : S32x192x1024.Idx) ∈ ((cfg0.win 11).blk t).view.set := by
  have e : b = bat t a := Fin.ext hb
  subst e
  rw [← emb11]
  exact ((cfg0.win 11).blk t).view.emb_mem_set _

theorem cover11 (i : S32x192x1024.Idx) : ∃ t : Fin cfg0.N, (cfg0.win 11).flush t = true ∧ i ∈ ((cfg0.win 11).blk t).view.set := by
  obtain ⟨b, p, q, rfl⟩ : ∃ (b : Fin 32) (p : Fin 192) (q : Fin 1024), i = ix3 b p q := ⟨i 0, i 1, i 2, eq_ix3 i⟩
  have hb := b.isLt
  exact ⟨⟨b.val / 2, by rw [show cfg0.N = 16 from N_0]; omega⟩, flush0_11 _, mem11 _ ⟨b.val % 2, by omega⟩ p q b (by show b.val = b.val / 2 * 2 + b.val % 2; omega)⟩

/-- The array after the run. -/
theorem final11 (c : Dev nD) :
    (dats m 0 c).arrAt 11 cfg0.N = Cert.ReferenceIdeal.Read.val_main_v109 (F := Ideal) (m ((c : Thread nD τ).loc main_arg1)) (m ((c : Thread nD τ).loc main_arg3)) (m ((c : Thread nD τ).loc main_arg4)) (m ((c : Thread nD τ).loc main_arg5)) :=
  (dats m 0 c).arrAt_eq_of_cover 11 _ (fun t _ => flushed11_eq m c t) cover11

end Cert.KernelIdeal.Pts

end
-- ==== Proof.Out12.lean ====
/-
  An output window from its blocks to its whole array.  At grid point `t` the body's two stores leave, at
  `(a, i, j)` of the block, example `a`'s result at `(i, j)` as a function of the slabs of the input blocks;
  those slabs are batch entry `2 t + a` of the argument arrays; by the bridge that value is the reference's
  stage at `(2 t + a, i, j)`, which is where the block's `(a, i, j)` lies in the array.  So every point writes back
  its block of one whole-array function, the blocks cover the array (entry `b` lies in the block of point `b / 2`),
  and the array ends holding that function of the arguments.
-/
import proofs.«427880_j88742614270726_3_alg».proof.Proof.In0
import proofs.«427880_j88742614270726_3_alg».proof.Proof.In1
import proofs.«427880_j88742614270726_3_alg».proof.Proof.In2
import proofs.«427880_j88742614270726_3_alg».proof.Proof.In3
import proofs.«427880_j88742614270726_3_alg».proof.Proof.In4
import proofs.«427880_j88742614270726_3_alg».proof.Proof.In5

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index12 : ∀ t : Fin cfg0.N, win0_12.index t = ![t.val, 0, 0] := (by decide +kernel : ∀ t : Fin grid0.N, _)

theorem emb12 (t : Fin cfg0.N) (a : Fin 2) (i : Fin 192) (j : Fin 192) :
    ((cfg0.win 12).blk t).view.emb (ix3 a i j) = ix3 (bat t a) i j := by
  funext ax; apply Fin.ext
  have e := index12 t
  match ax with
  | ⟨0, _⟩ => show win0_12.index t (0 : Fin 3) * 2 + 1 * a.val = t.val * 2 + a.val; rw [e]; show t.val * 2 + 1 * a.val = _; omega
  | ⟨1, _⟩ => show win0_12.index t (1 : Fin 3) * 192 + 1 * i.val = i.val; rw [e]; show 0 * 192 + 1 * i.val = _; omega
  | ⟨2, _⟩ => show win0_12.index t (2 : Fin 3) * 192 + 1 * j.val = j.val; rw [e]; show 0 * 192 + 1 * j.val = _; omega

/-- The block the body leaves, read at example `a`: that example's result of its slabs. -/
theorem out12_apply (x0 x2 x4 x5 : Vec Ideal S2x192x1024 .f32) (x1 x3 : Vec Ideal S2x1x192 .f32) (a : Fin 2) (i : Fin 192) (j : Fin 192) :
    out0_12 x0 x1 x2 x3 x4 x5 (ix3 a i j) = attnPH (slab a x0) (slab a x2) (mrow a x3) (ix2 i j) := by
  unfold out0_12
  match a with
  | ⟨0, _⟩ =>
    refine (canon_sq0 _ _ i j).trans ?_
    show up (attnPH (sq (View.ld x0 r0_0)) (sq (View.ld x2 r0_0)) (sqm (View.ld x3 r0_1))) (ix3 (0 : Fin 1) i j) = _
    simp only [up_apply, sq_ld0, sqm_ld0]
    rfl
  | ⟨1, _⟩ =>
    refine (canon_sq1 _ _ i j).trans ?_
    show up (attnPH (sq (View.ld x0 r0_3)) (sq (View.ld x2 r0_3)) (sqm (View.ld x3 r0_4))) (ix3 (0 : Fin 1) i j) = _
    simp only [up_apply, sq_ld1, sqm_ld1]
    rfl

/-- What point `t` writes back is its block of the reference's stage of the argument arrays. -/
theorem flushed12_eq (c : Dev nD) (t : Fin cfg0.N) :
    (dats m 0 c).flushed 12 t = ((cfg0.win 12).blk t).view.read (Elt Ideal)
      (Cert.ReferenceIdeal.Read.val_main_v23 (F := Ideal) (m ((c : Thread nD τ).loc main_arg0)) (m ((c : Thread nD τ).loc main_arg2)) (m ((c : Thread nD τ).loc main_arg3))) := by
  rw [Cert.KernelIdeal.Value.flushed12]
  funext y
  obtain ⟨a, i, j, rfl⟩ : ∃ (a : Fin 2) (i : Fin 192) (j : Fin 192), y = ix3 a i j := ⟨y 0, y 1, y 2, eq_ix3 y⟩
  show out0_12 (iblk m c 0 t) (iblk m c 1 t) (iblk m c 2 t) (iblk m c 3 t) (iblk m c 4 t) (iblk m c 5 t) (ix3 a i j)
    = Cert.ReferenceIdeal.Read.val_main_v23 (F := Ideal) (m ((c : Thread nD τ).loc main_arg0)) (m ((c : Thread nD τ).loc main_arg2)) (m ((c : Thread nD τ).loc main_arg3)) (((cfg0.win 12).blk t).view.emb (ix3 a i j))
  rw [emb12, out12_apply, Cert.Bridge.premHyp]
  simp only [slab0, slab2, slab4, slab5, mrow1, mrow3]

theorem mem12 (t : Fin cfg0.N) (a : Fin 2) (p : Fin 192) (q : Fin 192) (b : Fin 32) (hb : b.val = t.val * 2 + a.val) :
    (ix3 b p q : S32x192x192.Idx) ∈ ((cfg0.win 12).blk t).view.set := by
  have e : b = bat t a := Fin.ext hb
  subst e
  rw [← emb12]
  exact ((cfg0.win 12).blk t).view.emb_mem_set _

theorem cover12 (i : S32x192x192.Idx) : ∃ t : Fin cfg0.N, (cfg0.win 12).flush t = true ∧ i ∈ ((cfg0.win 12).blk t).view.set := by
  obtain ⟨b, p, q, rfl⟩ : ∃ (b : Fin 32) (p : Fin 192) (q : Fin 192), i = ix3 b p q := ⟨i 0, i 1, i 2, eq_ix3 i⟩
  have hb := b.isLt
  exact ⟨⟨b.val / 2, by rw [show cfg0.N = 16 from N_0]; omega⟩, flush0_12 _, mem12 _ ⟨b.val % 2, by omega⟩ p q b (by show b.val = b.val / 2 * 2 + b.val % 2; omega)⟩

/-- The array after the run. -/
theorem final12 (c : Dev nD) :
    (dats m 0 c).arrAt 12 cfg0.N = Cert.ReferenceIdeal.Read.val_main_v23 (F := Ideal) (m ((c : Thread nD τ).loc main_arg0)) (m ((c : Thread nD τ).loc main_arg2)) (m ((c : Thread nD τ).loc main_arg3)) :=
  (dats m 0 c).arrAt_eq_of_cover 12 _ (fun t _ => flushed12_eq m c t) cover12

end Cert.KernelIdeal.Pts

end
-- ==== Proof.Out13.lean ====
/-
  An output window from its blocks to its whole array.  At grid point `t` the body's two stores leave, at
  `(a, i, j)` of the block, example `a`'s result at `(i, j)` as a function of the slabs of the input blocks;
  those slabs are batch entry `2 t + a` of the argument arrays; by the bridge that value is the reference's
  stage at `(2 t + a, i, j)`, which is where the block's `(a, i, j)` lies in the array.  So every point writes back
  its block of one whole-array function, the blocks cover the array (entry `b` lies in the block of point `b / 2`),
  and the array ends holding that function of the arguments.
-/
import proofs.«427880_j88742614270726_3_alg».proof.Proof.In0
import proofs.«427880_j88742614270726_3_alg».proof.Proof.In1
import proofs.«427880_j88742614270726_3_alg».proof.Proof.In2
import proofs.«427880_j88742614270726_3_alg».proof.Proof.In3
import proofs.«427880_j88742614270726_3_alg».proof.Proof.In4
import proofs.«427880_j88742614270726_3_alg».proof.Proof.In5

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index13 : ∀ t : Fin cfg0.N, win0_13.index t = ![t.val, 0, 0] := (by decide +kernel : ∀ t : Fin grid0.N, _)

theorem emb13 (t : Fin cfg0.N) (a : Fin 2) (i : Fin 192) (j : Fin 192) :
    ((cfg0.win 13).blk t).view.emb (ix3 a i j) = ix3 (bat t a) i j := by
  funext ax; apply Fin.ext
  have e := index13 t
  match ax with
  | ⟨0, _⟩ => show win0_13.index t (0 : Fin 3) * 2 + 1 * a.val = t.val * 2 + a.val; rw [e]; show t.val * 2 + 1 * a.val = _; omega
  | ⟨1, _⟩ => show win0_13.index t (1 : Fin 3) * 192 + 1 * i.val = i.val; rw [e]; show 0 * 192 + 1 * i.val = _; omega
  | ⟨2, _⟩ => show win0_13.index t (2 : Fin 3) * 192 + 1 * j.val = j.val; rw [e]; show 0 * 192 + 1 * j.val = _; omega

/-- The block the body leaves, read at example `a`: that example's result of its slabs. -/
theorem out13_apply (x0 x2 x4 x5 : Vec Ideal S2x192x1024 .f32) (x1 x3 : Vec Ideal S2x1x192 .f32) (a : Fin 2) (i : Fin 192) (j : Fin 192) :
    out0_13 x0 x1 x2 x3 x4 x5 (ix3 a i j) = attnHP (slab a x0) (slab a x2) (mrow a x1) (ix2 i j) := by
  unfold out0_13
  match a with
  | ⟨0, _⟩ =>
    refine (canon_sq0 _ _ i j).trans ?_
    show up (attnHP (sq (View.ld x0 r0_0)) (sq (View.ld x2 r0_0)) (sqm (View.ld x1 r0_1))) (ix3 (0 : Fin 1) i j) = _
    simp only [up_apply, sq_ld0, sqm_ld0]
    rfl
  | ⟨1, _⟩ =>
    refine (canon_sq1 _ _ i j).trans ?_
    show up (attnHP (sq (View.ld x0 r0_3)) (sq (View.ld x2 r0_3)) (sqm (View.ld x1 r0_4))) (ix3 (0 : Fin 1) i j) = _
    simp only [up_apply, sq_ld1, sqm_ld1]
    rfl

/-- What point `t` writes back is its block of the reference's stage of the argument arrays. -/
theorem flushed13_eq (c : Dev nD) (t : Fin cfg0.N) :
    (dats m 0 c).flushed 13 t = ((cfg0.win 13).blk t).view.read (Elt Ideal)
      (Cert.ReferenceIdeal.Read.val_main_v46 (F := Ideal) (m ((c : Thread nD τ).loc main_arg0)) (m ((c : Thread nD τ).loc main_arg1)) (m ((c : Thread nD τ).loc main_arg2))) := by
  rw [Cert.KernelIdeal.Value.flushed13]
  funext y
  obtain ⟨a, i, j, rfl⟩ : ∃ (a : Fin 2) (i : Fin 192) (j : Fin 192), y = ix3 a i j := ⟨y 0, y 1, y 2, eq_ix3 y⟩
  show out0_13 (iblk m c 0 t) (iblk m c 1 t) (iblk m c 2 t) (iblk m c 3 t) (iblk m c 4 t) (iblk m c 5 t) (ix3 a i j)
    = Cert.ReferenceIdeal.Read.val_main_v46 (F := Ideal) (m ((c : Thread nD τ).loc main_arg0)) (m ((c : Thread nD τ).loc main_arg1)) (m ((c : Thread nD τ).loc main_arg2)) (((cfg0.win 13).blk t).view.emb (ix3 a i j))
  rw [emb13, out13_apply, Cert.Bridge.hypPrem]
  simp only [slab0, slab2, slab4, slab5, mrow1, mrow3]

theorem mem13 (t : Fin cfg0.N) (a : Fin 2) (p : Fin 192) (q : Fin 192) (b : Fin 32) (hb : b.val = t.val * 2 + a.val) :
    (ix3 b p q : S32x192x192.Idx) ∈ ((cfg0.win 13).blk t).view.set := by
  have e : b = bat t a := Fin.ext hb
  subst e
  rw [← emb13]
  exact ((cfg0.win 13).blk t).view.emb_mem_set _

theorem cover13 (i : S32x192x192.Idx) : ∃ t : Fin cfg0.N, (cfg0.win 13).flush t = true ∧ i ∈ ((cfg0.win 13).blk t).view.set := by
  obtain ⟨b, p, q, rfl⟩ : ∃ (b : Fin 32) (p : Fin 192) (q : Fin 192), i = ix3 b p q := ⟨i 0, i 1, i 2, eq_ix3 i⟩
  have hb := b.isLt
  exact ⟨⟨b.val / 2, by rw [show cfg0.N = 16 from N_0]; omega⟩, flush0_13 _, mem13 _ ⟨b.val % 2, by omega⟩ p q b (by show b.val = b.val / 2 * 2 + b.val % 2; omega)⟩

/-- The array after the run. -/
theorem final13 (c : Dev nD) :
    (dats m 0 c).arrAt 13 cfg0.N = Cert.ReferenceIdeal.Read.val_main_v46 (F := Ideal) (m ((c : Thread nD τ).loc main_arg0)) (m ((c : Thread nD τ).loc main_arg1)) (m ((c : Thread nD τ).loc main_arg2)) :=
  (dats m 0 c).arrAt_eq_of_cover 13 _ (fun t _ => flushed13_eq m c t) cover13

end Cert.KernelIdeal.Pts

end
-- ==== Proof.Out14.lean ====
/-
  An output window from its blocks to its whole array.  At grid point `t` the body's two stores leave, at
  `(a, i, j)` of the block, example `a`'s result at `(i, j)` as a function of the slabs of the input blocks;
  those slabs are batch entry `2 t + a` of the argument arrays; by the bridge that value is the reference's
  stage at `(2 t + a, i, j)`, which is where the block's `(a, i, j)` lies in the array.  So every point writes back
  its block of one whole-array function, the blocks cover the array (entry `b` lies in the block of point `b / 2`),
  and the array ends holding that function of the arguments.
-/
import proofs.«427880_j88742614270726_3_alg».proof.Proof.In0
import proofs.«427880_j88742614270726_3_alg».proof.Proof.In1
import proofs.«427880_j88742614270726_3_alg».proof.Proof.In2
import proofs.«427880_j88742614270726_3_alg».proof.Proof.In3
import proofs.«427880_j88742614270726_3_alg».proof.Proof.In4
import proofs.«427880_j88742614270726_3_alg».proof.Proof.In5

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index14 : ∀ t : Fin cfg0.N, win0_14.index t = ![t.val, 0, 0] := (by decide +kernel : ∀ t : Fin grid0.N, _)

theorem emb14 (t : Fin cfg0.N) (a : Fin 2) (i : Fin 192) (j : Fin 192) :
    ((cfg0.win 14).blk t).view.emb (ix3 a i j) = ix3 (bat t a) i j := by
  funext ax; apply Fin.ext
  have e := index14 t
  match ax with
  | ⟨0, _⟩ => show win0_14.index t (0 : Fin 3) * 2 + 1 * a.val = t.val * 2 + a.val; rw [e]; show t.val * 2 + 1 * a.val = _; omega
  | ⟨1, _⟩ => show win0_14.index t (1 : Fin 3) * 192 + 1 * i.val = i.val; rw [e]; show 0 * 192 + 1 * i.val = _; omega
  | ⟨2, _⟩ => show win0_14.index t (2 : Fin 3) * 192 + 1 * j.val = j.val; rw [e]; show 0 * 192 + 1 * j.val = _; omega

/-- The block the body leaves, read at example `a`: that example's result of its slabs. -/
theorem out14_apply (x0 x2 x4 x5 : Vec Ideal S2x192x1024 .f32) (x1 x3 : Vec Ideal S2x1x192 .f32) (a : Fin 2) (i : Fin 192) (j : Fin 192) :
    out0_14 x0 x1 x2 x3 x4 x5 (ix3 a i j) = attnPH (slab a x4) (slab a x5) (mrow a x3) (ix2 i j) := by
  unfold out0_14
  match a with
  | ⟨0, _⟩ =>
    refine (canon_sq0 _ _ i j).trans ?_
    show up (attnPH (sq (View.ld x4 r0_0)) (sq (View.ld x5 r0_0)) (sqm (View.ld x3 r0_1))) (ix3 (0 : Fin 1) i j) = _
    simp only [up_apply, sq_ld0, sqm_ld0]
    rfl
  | ⟨1, _⟩ =>
    refine (canon_sq1 _ _ i j).trans ?_
    show up (attnPH (sq (View.ld x4 r0_3)) (sq (View.ld x5 r0_3)) (sqm (View.ld x3 r0_4))) (ix3 (0 : Fin 1) i j) = _
    simp only [up_apply, sq_ld1, sqm_ld1]
    rfl

/-- What point `t` writes back is its block of the reference's stage of the argument arrays. -/
theorem flushed14_eq (c : Dev nD) (t : Fin cfg0.N) :
    (dats m 0 c).flushed 14 t = ((cfg0.win 14).blk t).view.read (Elt Ideal)
      (Cert.ReferenceIdeal.Read.val_main_v68 (F := Ideal) (m ((c : Thread nD τ).loc main_arg3)) (m ((c : Thread nD τ).loc main_arg4)) (m ((c : Thread nD τ).loc main_arg5))) := by
  rw [Cert.KernelIdeal.Value.flushed14]
  funext y
  obtain ⟨a, i, j, rfl⟩ : ∃ (a : Fin 2) (i : Fin 192) (j : Fin 192), y = ix3 a i j := ⟨y 0, y 1, y 2, eq_ix3 y⟩
  show out0_14 (iblk m c 0 t) (iblk m c 1 t) (iblk m c 2 t) (iblk m c 3 t) (iblk m c 4 t) (iblk m c 5 t) (ix3 a i j)
    = Cert.ReferenceIdeal.Read.val_main_v68 (F := Ideal) (m ((c : Thread nD τ).loc main_arg3)) (m ((c : Thread nD τ).loc main_arg4)) (m ((c : Thread nD τ).loc main_arg5)) (((cfg0.win 14).blk t).view.emb (ix3 a i j))
  rw [emb14, out14_apply, Cert.Bridge.premHypG]
  simp only [slab0, slab2, slab4, slab5, mrow1, mrow3]

theorem mem14 (t : Fin cfg0.N) (a : Fin 2) (p : Fin 192) (q : Fin 192) (b : Fin 32) (hb : b.val = t.val * 2 + a.val) :
    (ix3 b p q : S32x192x192.Idx) ∈ ((cfg0.win 14).blk t).view.set := by
  have e : b = bat t a := Fin.ext hb
  subst e
  rw [← emb14]
  exact ((cfg0.win 14).blk t).view.emb_mem_set _

theorem cover14 (i : S32x192x192.Idx) : ∃ t : Fin cfg0.N, (cfg0.win 14).flush t = true ∧ i ∈ ((cfg0.win 14).blk t).view.set := by
  obtain ⟨b, p, q, rfl⟩ : ∃ (b : Fin 32) (p : Fin 192) (q : Fin 192), i = ix3 b p q := ⟨i 0, i 1, i 2, eq_ix3 i⟩
  have hb := b.isLt
  exact ⟨⟨b.val / 2, by rw [show cfg0.N = 16 from N_0]; omega⟩, flush0_14 _, mem14 _ ⟨b.val % 2, by omega⟩ p q b (by show b.val = b.val / 2 * 2 + b.val % 2; omega)⟩

/-- The array after the run. -/
theorem final14 (c : Dev nD) :
    (dats m 0 c).arrAt 14 cfg0.N = Cert.ReferenceIdeal.Read.val_main_v68 (F := Ideal) (m ((c : Thread nD τ).loc main_arg3)) (m ((c : Thread nD τ).loc main_arg4)) (m ((c : Thread nD τ).loc main_arg5)) :=
  (dats m 0 c).arrAt_eq_of_cover 14 _ (fun t _ => flushed14_eq m c t) cover14

end Cert.KernelIdeal.Pts

end
-- ==== Proof.Out15.lean ====
/-
  An output window from its blocks to its whole array.  At grid point `t` the body's two stores leave, at
  `(a, i, j)` of the block, example `a`'s result at `(i, j)` as a function of the slabs of the input blocks;
  those slabs are batch entry `2 t + a` of the argument arrays; by the bridge that value is the reference's
  stage at `(2 t + a, i, j)`, which is where the block's `(a, i, j)` lies in the array.  So every point writes back
  its block of one whole-array function, the blocks cover the array (entry `b` lies in the block of point `b / 2`),
  and the array ends holding that function of the arguments.
-/
import proofs.«427880_j88742614270726_3_alg».proof.Proof.In0
import proofs.«427880_j88742614270726_3_alg».proof.Proof.In1
import proofs.«427880_j88742614270726_3_alg».proof.Proof.In2
import proofs.«427880_j88742614270726_3_alg».proof.Proof.In3
import proofs.«427880_j88742614270726_3_alg».proof.Proof.In4
import proofs.«427880_j88742614270726_3_alg».proof.Proof.In5

noncomputable section

namespace Cert.KernelIdeal.Pts

open Cert.KernelIdeal Cert.KernelIdeal.Gen Idealize.ShloMosaic Idealize.ShloMosaic.TcCoe Idealize.SL.Sem Idealize.ShloMosaic.ValueIdx Cert.KernelIdeal.Ex
open Idealize.ShloMosaic.Pipeline (Dat)

variable (m : (ℓ : Loc nD τ sig) → Buf (Elt Ideal) ℓ)

theorem index15 : ∀ t : Fin cfg0.N, win0_15.index t = ![t.val, 0, 0] := (by decide +kernel : ∀ t : Fin grid0.N, _)

theorem emb15 (t : Fin cfg0.N) (a : Fin 2) (i : Fin 192) (j : Fin 192) :
    ((cfg0.win 15).blk t).view.emb (ix3 a i j) = ix3 (bat t a) i j := by
  funext ax; apply Fin.ext
  have e := index15 t
  match ax with
  | ⟨0, _⟩ => show win0_15.index t (0 : Fin 3) * 2 + 1 * a.val = t.val * 2 + a.val; rw [e]; show t.val * 2 + 1 * a.val = _; omega
  | ⟨1, _⟩ => show win0_15.index t (1 : Fin 3) * 192 + 1 * i.val = i.val; rw [e]; show 0 * 192 + 1 * i.val = _; omega
  | ⟨2, _⟩ => show win0_15.index t (2 : Fin 3) * 192 + 1 * j.val = j.val; rw [e]; show 0 * 192 + 1 * j.val = _; omega

/-- The block the body leaves, read at example `a`: that example's result of its slabs. -/
theorem out15_apply (x0 x2 x4 x5 : Vec Ideal S2x192x1024 .f32) (x1 x3 : Vec Ideal S2x1x192 .f32) (a : Fin 2) (i : Fin 192) (j : Fin 192) :
    out0_15 x0 x1 x2 x3 x4 x5 (ix3 a i j) = attnHP (slab a x4) (slab a x5) (mrow a x1) (ix2 i j) := by
  unfold out0_15
  match a with
  | ⟨0, _⟩ =>
    refine (canon_sq0 _ _ i j).trans ?_
    show up (attnHP (sq (View.ld x4 r0_0)) (sq (View.ld x5 r0_0)) (sqm (View.ld x1 r0_1))) (ix3 (0 : Fin 1) i j) = _
    simp only [up_apply, sq_ld0, sqm_ld0]
    rfl
  | ⟨1, _⟩ =>
    refine (canon_sq1 _ _ i j).trans ?_
    show up (attnHP (sq (View.ld x4 r0_3)) (sq (View.ld x5 r0_3)) (sqm (View.ld x1 r0_4))) (ix3 (0 : Fin 1) i j) = _
    simp only [up_apply, sq_ld1, sqm_ld1]
    rfl

/-- What point `t` writes back is its block of the reference's stage of the argument arrays. -/
theorem flushed15_eq (c : Dev nD) (t : Fin cfg0.N) :
    (dats m 0 c).flushed 15 t = ((cfg0.win 15).blk t).view.read (Elt Ideal)
      (Cert.ReferenceIdeal.Read.val_main_v91 (F := Ideal) (m ((c : Thread nD τ).loc main_arg1)) (m ((c : Thread nD τ).loc main_arg4)) (m ((c : Thread nD τ).loc main_arg5))) := by
  rw [Cert.KernelIdeal.Value.flushed15]
  funext y
  obtain ⟨a, i, j, rfl⟩ : ∃ (a : Fin 2) (i : Fin 192) (j : Fin 192), y = ix3 a i j := ⟨y 0, y 1, y 2, eq_ix3 y⟩
  show out0_15 (iblk m c 0 t) (iblk m c 1 t) (iblk m c 2 t) (iblk m c 3 t) (iblk m c 4 t) (iblk m c 5 t) (ix3 a i j)
    = Cert.ReferenceIdeal.Read.val_main_v91 (F := Ideal) (m ((c : Thread nD τ).loc main_arg1)) (m ((c : Thread nD τ).loc main_arg4)) (m ((c : Thread nD τ).loc main_arg5)) (((cfg0.win 15).blk t).view.emb (ix3 a i j))
  rw [emb15, out15_apply, Cert.Bridge.hypPremG]
  simp only [slab0, slab2, slab4, slab5, mrow1, mrow3]

theorem mem15 (t : Fin cfg0.N) (a : Fin 2) (p : Fin 192) (q : Fin 192) (b : Fin 32) (hb : b.val = t.val * 2 + a.val) :
    (ix3 b p q : S32x192x192.Idx) ∈ ((cfg0.win 15).blk t).view.set := by
  have e : b = bat t a := Fin.ext hb
  subst e
  rw [← emb15]
  exact ((cfg0.win 15).blk t).view.emb_mem_set _

theorem cover15 (i : S32x192x192.Idx) : ∃ t : Fin cfg0.N, (cfg0.win 15).flush t = true ∧ i ∈ ((cfg0.win 15).blk t).view.set := by
  obtain ⟨b, p, q, rfl⟩ : ∃ (b : Fin 32) (p : Fin 192) (q : Fin 192), i = ix3 b p q := ⟨i 0, i 1, i 2, eq_ix3 i⟩
  have hb := b.isLt
  exact ⟨⟨b.val / 2, by rw [show cfg0.N = 16 from N_0]; omega⟩, flush0_15 _, mem15 _ ⟨b.val % 2, by omega⟩ p q b (by show b.val = b.val / 2 * 2 + b.val % 2; omega)⟩

/-- The array after the run. -/
theorem final15 (c : Dev nD) :
    (dats m 0 c).arrAt 15 cfg0.N = Cert.ReferenceIdeal.Read.val_main_v91 (F := Ideal) (m ((c : Thread nD τ).loc main_arg1)) (m ((c : Thread nD τ).loc main_arg4)) (m ((c : Thread nD τ).loc main_arg5)) :=
  (dats m 0 c).arrAt_eq_of_cover 15 _ (fun t _ => flushed15_eq m c t) cover15

end Cert.KernelIdeal.Pts

end
-- ==== Proof.KernelRun.lean ====
/-
  The idealized kernel's run with every result named: on each device every weakly fair execution terminates, each
  of the ten result arrays holds the reference's corresponding stage of the argument arrays (each output window's
  blocks cover its array, and every block is that stage's block), and the arguments are unchanged.
-/
import proofs.«427880_j88742614270726_3_alg».proof.Proof.Out6
import proofs.«427880_j88742614270726_3_alg».proof.Proof.Out7
import proofs.«427880_j88742614270726_3_alg».proof.Proof.Out8
import proofs.«427880_j88742614270726_3_alg».proof.Proof.Out9
import proofs.«427880_j88742614270726_3_alg».proof.Proof.Out10
import proofs.«427880_j88742614270726_3_alg».proof.Proof.Out11
import proofs.«427880_j88742614270726_3_alg».proof.Proof.Out12
import proofs.«427880_j88742614270726_3_alg».proof.Proof.Out13
import proofs.«427880_j88742614270726_3_alg».proof.Proof.Out14
import proofs.«427880_j88742614270726_3_alg».proof.Proof.Out15

noncomputable section

namespace Cert.KernelIdeal.Pts

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem kernel_run : θ_run defs (onTc (τ := τ) (main (F := Ideal))) ⟨m, fun _ => 0, ρ⟩ fun r => ∀ c : Dev nD,
      r.2.mem ((c : Thread nD τ).loc main_v2_0) = Cert.ReferenceIdeal.Read.val_main_v92 (F := Ideal) (m ((c : Thread nD τ).loc main_arg0)) (m ((c : Thread nD τ).loc main_arg2)) (m ((c : Thread nD τ).loc main_arg3)) (m ((c : Thread nD τ).loc main_arg4)) (m ((c : Thread nD τ).loc main_arg5))
      ∧       r.2.mem ((c : Thread nD τ).loc main_v2_1) = Cert.ReferenceIdeal.Read.val_main_v93 (F := Ideal) (m ((c : Thread nD τ).loc main_arg0)) (m ((c : Thread nD τ).loc main_arg1)) (m ((c : Thread nD τ).loc main_arg2)) (m ((c : Thread nD τ).loc main_arg4)) (m ((c : Thread nD τ).loc main_arg5))
      ∧       r.2.mem ((c : Thread nD τ).loc main_v2_2) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧       r.2.mem ((c : Thread nD τ).loc main_v2_3) = Cert.ReferenceIdeal.Read.val_main_v105 (F := Ideal) (m ((c : Thread nD τ).loc main_arg1)) (m ((c : Thread nD τ).loc main_arg3)) (m ((c : Thread nD τ).loc main_arg4)) (m ((c : Thread nD τ).loc main_arg5))
      ∧       r.2.mem ((c : Thread nD τ).loc main_v2_4) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧       r.2.mem ((c : Thread nD τ).loc main_v2_5) = Cert.ReferenceIdeal.Read.val_main_v109 (F := Ideal) (m ((c : Thread nD τ).loc main_arg1)) (m ((c : Thread nD τ).loc main_arg3)) (m ((c : Thread nD τ).loc main_arg4)) (m ((c : Thread nD τ).loc main_arg5))
      ∧       r.2.mem ((c : Thread nD τ).loc main_v2_6) = Cert.ReferenceIdeal.Read.val_main_v23 (F := Ideal) (m ((c : Thread nD τ).loc main_arg0)) (m ((c : Thread nD τ).loc main_arg2)) (m ((c : Thread nD τ).loc main_arg3))
      ∧       r.2.mem ((c : Thread nD τ).loc main_v2_7) = Cert.ReferenceIdeal.Read.val_main_v46 (F := Ideal) (m ((c : Thread nD τ).loc main_arg0)) (m ((c : Thread nD τ).loc main_arg1)) (m ((c : Thread nD τ).loc main_arg2))
      ∧       r.2.mem ((c : Thread nD τ).loc main_v2_8) = Cert.ReferenceIdeal.Read.val_main_v68 (F := Ideal) (m ((c : Thread nD τ).loc main_arg3)) (m ((c : Thread nD τ).loc main_arg4)) (m ((c : Thread nD τ).loc main_arg5))
      ∧       r.2.mem ((c : Thread nD τ).loc main_v2_9) = Cert.ReferenceIdeal.Read.val_main_v91 (F := Ideal) (m ((c : Thread nD τ).loc main_arg1)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c),
      (h c).2.1.trans (final7 m c),
      (h c).2.2.1.trans (final8 m c),
      (h c).2.2.2.1.trans (final9 m c),
      (h c).2.2.2.2.1.trans (final10 m c),
      (h c).2.2.2.2.2.1.trans (final11 m c),
      (h c).2.2.2.2.2.2.1.trans (final12 m c),
      (h c).2.2.2.2.2.2.2.1.trans (final13 m c),
      (h c).2.2.2.2.2.2.2.2.1.trans (final14 m c),
      (h c).2.2.2.2.2.2.2.2.2.1.trans (final15 m c),
      (h c).2.2.2.2.2.2.2.2.2.2⟩)
    (Cert.KernelIdeal.Value.run_blocks m ρ)

end Cert.KernelIdeal.Pts

end
-- ==== Proof.lean ====
/-
  Masked cross attention between a premise and a hypothesis, over text features and over graph features: the
  Pallas kernel against its jnp reference, equal on the extended reals.

  For each example of the batch both programs form the score matrix `S = P · Hᵀ` (and `S_g` from the graph
  features), take the masked softmax of each row of `S` under the hypothesis mask and of each column of `S` under
  the premise mask — scores times mask, shifted by the row maximum, exponentiated, normalised, masked again and
  renormalised by the row sum plus a small literal —, add the text and graph attention maps, and form the four
  mask-weighted sums of rows.  The kernel does this two examples a grid point on matrices; the reference does it on
  the whole batch at once.  Read at an index both are the same finite sums, row maxima, exponentials and quotients
  of the same entries of the arguments: no rearrangement of a sum and no cancellation is involved, so the
  equality needs nothing of the inputs' finiteness.  Narrowing a float format is the identity on extended reals;
  the kernel's products accumulate into zero, the reference's sums start from zero, and the reference's extra
  maximum with minus infinity changes nothing.

  The three frames are the generated ones (the reference's is its generated run with the results dropped); the
  idealization rewrote no operation, so `preserves` is trivial; `algebraic` sets the kernel's run, with each
  result array identified as the reference's stage of the arguments, beside the reference's generated run.
-/
import proofs.«427880_j88742614270726_3_alg».proof.Defs
import proofs.«427880_j88742614270726_3_alg».proof.Proof.Gen.Kernel
import proofs.«427880_j88742614270726_3_alg».proof.Proof.Gen.Kernel.Skeleton
import proofs.«427880_j88742614270726_3_alg».proof.Proof.Gen.Kernel.Launch
import proofs.«427880_j88742614270726_3_alg».proof.Proof.Gen.Kernel.Points
import proofs.«427880_j88742614270726_3_alg».proof.Proof.Gen.Kernel.Frame
import proofs.«427880_j88742614270726_3_alg».proof.Proof.Gen.KernelIdeal
import proofs.«427880_j88742614270726_3_alg».proof.Proof.Gen.KernelIdeal.Skeleton
import proofs.«427880_j88742614270726_3_alg».proof.Proof.Gen.KernelIdeal.Launch
import proofs.«427880_j88742614270726_3_alg».proof.Proof.Gen.KernelIdeal.Points
import proofs.«427880_j88742614270726_3_alg».proof.Proof.Gen.KernelIdeal.Frame
import proofs.«427880_j88742614270726_3_alg».proof.Proof.Gen.ReferenceIdeal
import proofs.«427880_j88742614270726_3_alg».proof.Proof.Gen.Pre_finite_inputs
import proofs.«427880_j88742614270726_3_alg».proof.Proof.Gen.KernelIdeal.Value
import proofs.«427880_j88742614270726_3_alg».proof.Proof.Gen.ReferenceIdeal.Run
import proofs.«427880_j88742614270726_3_alg».proof.Proof.Gen.ReferenceIdeal.Read
import proofs.«427880_j88742614270726_3_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's generated run, its ten results dropped. -/
theorem frame_referenceIdeal : Cert.frame_ReferenceIdeal := fun m ρ _ =>
  (θ_run Cert.ReferenceIdeal.defs _ _).mono (fun _ h c => (h c).2.2.2.2.2.2.2.2.2.2) (Cert.ReferenceIdeal.Value.run (F := Ideal) m ρ)

/-- Both programs end with each result array at the reference's stage of the arguments: the kernel's by its run read
    block by block, the reference's by its generated run, the two memories agreeing on the arguments. -/
theorem algebraic : Cert.algebraic_KernelIdeal_ReferenceIdeal := by
  intro m ρ m' ρ' _ hagree
  refine ⟨_, _, _, _, _, _, _, _, _, _, Cert.KernelIdeal.Pts.kernel_run m ρ, ?_⟩
  refine (θ_run Cert.ReferenceIdeal.defs _ _).mono (fun r h c => ?_) (Cert.ReferenceIdeal.Value.run (F := Ideal) m' ρ')
  obtain ⟨e0, e1, e2, e3, e4, e5⟩ := hagree c
  obtain ⟨h0, h1, h2, h3, h4, h5, h6, h7, h8, h9, hargs⟩ := h c
  refine ⟨?_, ?_, ?_, ?_, ?_, ?_, ?_, ?_, ?_, ?_, hargs⟩
  · rw [h0, Cert.ReferenceIdeal.Read.val_main_v92_eq, e0, e2, e3, e4, e5]
  · rw [h1, Cert.ReferenceIdeal.Read.val_main_v93_eq, e0, e1, e2, e4, e5]
  · rw [h2, Cert.ReferenceIdeal.Read.val_main_v97_eq, e0, e1, e2, e3, e4, e5]
  · rw [h3, Cert.ReferenceIdeal.Read.val_main_v105_eq, e1, e3, e4, e5]
  · rw [h4, Cert.ReferenceIdeal.Read.val_main_v101_eq, e0, e1, e2, e3, e4, e5]
  · rw [h5, Cert.ReferenceIdeal.Read.val_main_v109_eq, e1, e3, e4, e5]
  · rw [h6, Cert.ReferenceIdeal.Read.val_main_v23_eq, e0, e2, e3]
  · rw [h7, Cert.ReferenceIdeal.Read.val_main_v46_eq, e0, e1, e2]
  · rw [h8, Cert.ReferenceIdeal.Read.val_main_v68_eq, e3, e4, e5]
  · rw [h9, Cert.ReferenceIdeal.Read.val_main_v91_eq, e1, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
